-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S256x32 : Shape := ⟨2, ![256, 32]⟩
abbrev S256x256 : Shape := ⟨2, ![256, 256]⟩
abbrev S32 : Shape := ⟨1, ![32]⟩
abbrev S256 : Shape := ⟨1, ![256]⟩
abbrev S1 : Shape := ⟨1, ![1]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S256x256 : S_.BroadcastsInDim S256x256 (![] : Fin 0 → Fin S256x256.rank)
  reducesTo_S256x256_S_d0_1 : S256x256.ReducesTo [0, 1] S_
  bcast_S_S32 : S_.BroadcastsInDim S32 (![] : Fin 0 → Fin S32.rank)
  reducesTo_S32_S_d0 : S32.ReducesTo [0] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S32 .f32) (main_arg5 : FVec F S32 .f32) (main_arg6 : FVec F S256 .f32) (main_arg7 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S16x64x64x256 .f32) (main_arg1 : FVec F S256x32 .f32) (main_arg2 : FVec F S256x32 .f32) (main_arg3 : FVec F S256x256 .f32) (main_arg4 : FVec F S32 .f32) (main_arg5 : FVec F S32 .f32) (main_arg6 : FVec F S256 .f32) (main_arg7 : FVec F S1 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S16x64x64x256 : Shape := ⟨4, ![16, 64, 64, 256]⟩
abbrev S256x32 : Shape := ⟨2, ![256, 32]⟩
abbrev S256x256 : Shape := ⟨2, ![256, 256]⟩
abbrev S32 : Shape := ⟨1, ![32]⟩
abbrev S256 : Shape := ⟨1, ![256]⟩
abbrev S1 : Shape := ⟨1, ![1]⟩
abbrev S65536x256 : Shape := ⟨2, ![65536, 256]⟩
abbrev S1x32 : Shape := ⟨2, ![1, 32]⟩
abbrev S1x256 : Shape := ⟨2, ![1, 256]⟩
abbrev S65536x32 : Shape := ⟨2, ![65536, 32]⟩
abbrev S2048x256 : Shape := ⟨2, ![2048, 256]⟩
abbrev S2048x32 : Shape := ⟨2, ![2048, 32]⟩
abbrev S16x131072 : Shape := ⟨2, ![16, 131072]⟩
abbrev S16x1048576 : Shape := ⟨2, ![16, 1048576]⟩
abbrev S16x16 : Shape := ⟨2, ![16, 16]⟩
abbrev S16x16384 : Shape := ⟨2, ![16, 16384]⟩
abbrev S_ : Shape := ⟨0, ![]⟩
abbrev S16 : Shape := ⟨1, ![16]⟩
abbrev S16x1 : Shape := ⟨2, ![16, 1]⟩
abbrev S1x1 : Shape := ⟨2, ![1, 1]⟩
abbrev S16x32768 : Shape := ⟨2, ![16, 32768]⟩

abbrev nBuf : Space → Nat
  | .hbm => 37
  | .vmem => 27
  | .smem => 0
  | _ => 0

abbrev bufTy : (tb : Table) → Fin (tcTables nBuf tb) → BufTy
  | .hbm, ⟨0, _⟩ => ⟨S16x64x64x256, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S32, .f32⟩
  | .hbm, ⟨5, _⟩ => ⟨S32, .f32⟩
  | .hbm, ⟨6, _⟩ => ⟨S256, .f32⟩
  | .hbm, ⟨7, _⟩ => ⟨S1, .f32⟩
  | .hbm, ⟨8, _⟩ => ⟨S65536x256, .f32⟩
  | .hbm, ⟨9, _⟩ => ⟨S1x32, .f32⟩
  | .hbm, ⟨10, _⟩ => ⟨S1x32, .f32⟩
  | .hbm, ⟨11, _⟩ => ⟨S1x256, .f32⟩
  | .hbm, ⟨12, _⟩ => ⟨S65536x32, .f32⟩
  | .hbm, ⟨13, _⟩ => ⟨S65536x32, .f32⟩
  | .hbm, ⟨14, _⟩ => ⟨S65536x256, .f32⟩
  | .hbm, ⟨15, _⟩ => ⟨S16x131072, .f32⟩
  | .hbm, ⟨16, _⟩ => ⟨S16x131072, .f32⟩
  | .hbm, ⟨17, _⟩ => ⟨S16x1048576, .f32⟩
  | .hbm, ⟨18, _⟩ => ⟨S16x1048576, .f32⟩
  | .hbm, ⟨19, _⟩ => ⟨S16x16, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16x1, .f32⟩
  | .hbm, ⟨26, _⟩ => ⟨S16x16, .f32⟩
  | .hbm, ⟨27, _⟩ => ⟨S16x16, .f32⟩
  | .hbm, ⟨28, _⟩ => ⟨S16x16, .f32⟩
  | .hbm, ⟨29, _⟩ => ⟨S_, .f32⟩
  | .hbm, ⟨30, _⟩ => ⟨S16, .f32⟩
  | .hbm, ⟨31, _⟩ => ⟨S16x1, .f32⟩
  | .hbm, ⟨32, _⟩ => ⟨S16x16, .f32⟩
  | .hbm, ⟨33, _⟩ => ⟨S16x16, .f32⟩
  | .hbm, ⟨34, _⟩ => ⟨S1x1, .f32⟩
  | .hbm, ⟨35, _⟩ => ⟨S16x1048576, .f32⟩
  | .hbm, ⟨36, _⟩ => ⟨S16x64x64x256, .f32⟩
  | .local _ .vmem, ⟨0, _⟩ => ⟨S2048x256, .f32⟩
  | .local _ .vmem, ⟨1, _⟩ => ⟨S2048x256, .f32⟩
  | .local _ .vmem, ⟨2, _⟩ => ⟨S256x32, .f32⟩
  | .local _ .vmem, ⟨3, _⟩ => ⟨S256x32, .f32⟩
  | .local _ .vmem, ⟨4, _⟩ => ⟨S256x256, .f32⟩
  | .local _ .vmem, ⟨5, _⟩ => ⟨S1x32, .f32⟩
  | .local _ .vmem, ⟨6, _⟩ => ⟨S1x32, .f32⟩
  | .local _ .vmem, ⟨7, _⟩ => ⟨S1x256, .f32⟩
  | .local _ .vmem, ⟨8, _⟩ => ⟨S2048x32, .f32⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S2048x256, .f32⟩
  | .local _ .vmem, ⟨13, _⟩ => ⟨S2048x256, .f32⟩
  | .local _ .vmem, ⟨14, _⟩ => ⟨S16x16384, .f32⟩
  | .local _ .vmem, ⟨15, _⟩ => ⟨S16x16384, .f32⟩
  | .local _ .vmem, ⟨16, _⟩ => ⟨S16x16384, .f32⟩
  | .local _ .vmem, ⟨17, _⟩ => ⟨S16x16384, .f32⟩
  | .local _ .vmem, ⟨18, _⟩ => ⟨S16x16, .f32⟩
  | .local _ .vmem, ⟨19, _⟩ => ⟨S16x16, .f32⟩
  | .local _ .vmem, ⟨20, _⟩ => ⟨S16x32768, .f32⟩
  | .local _ .vmem, ⟨21, _⟩ => ⟨S16x32768, .f32⟩
  | .local _ .vmem, ⟨22, _⟩ => ⟨S16x32768, .f32⟩
  | .local _ .vmem, ⟨23, _⟩ => ⟨S16x32768, .f32⟩
  | .local _ .vmem, ⟨24, _⟩ => ⟨S1x1, .f32⟩
  | .local _ .vmem, ⟨25, _⟩ => ⟨S16x32768, .f32⟩
  | .local _ .vmem, ⟨26, _⟩ => ⟨S16x32768, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc2_stg0_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc2_sem0_0 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S16x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x32768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x32768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16x32768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S16x64x64x256_S65536x256 : S16x64x64x256.ShapeCasts S65536x256
  shapeCasts_S32_S1x32 : S32.ShapeCasts S1x32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S256x256_S256x256_0_0 : ∀ a, (![0, 0] : Fin 2 → Nat) a + S256x256.size a ≤ S256x256.size a
  h_S256x256 : 0 < S256x256.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x32_S2048x32_0_0 : ∀ a, (![0, 0] : Fin 2 → Nat) a + S2048x32.size a ≤ S2048x32.size a
  h_S2048x32 : 0 < S2048x32.numel
  shapeCasts_S65536x32_S16x131072 : S65536x32.ShapeCasts S16x131072
  shapeCasts_S65536x256_S16x1048576 : S65536x256.ShapeCasts S16x1048576
  shapeCasts_S16x64x64x256_S16x1048576 : S16x64x64x256.ShapeCasts S16x1048576
  inb_S16x16_S16x16_0_0 : ∀ a, (![0, 0] : Fin 2 → Nat) a + S16x16.size a ≤ S16x16.size a
  h_S16x16 : 0 < S16x16.numel
  inb_S16x16384_S16x16384_0_0 : ∀ a, (![0, 0] : Fin 2 → Nat) a + S16x16384.size a ≤ S16x16384.size a
  h_S16x16384 : 0 < S16x16384.numel
  shapeCasts_S16x16384_S16x16384 : S16x16384.ShapeCasts S16x16384
  shapeCasts_S16x16_S16x16 : S16x16.ShapeCasts S16x16
  reducesTo_S16x16_S16_d1 : S16x16.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S1_S1x1 : S1.ShapeCasts S1x1
  inb_S16x32768_S16x32768_0_0 : ∀ a, (![0, 0] : Fin 2 → Nat) a + S16x32768.size a ≤ S16x32768.size a
  h_S16x32768 : 0 < S16x32768.numel
  shapeCasts_S16x32768_S16x32768 : S16x32768.ShapeCasts S16x32768
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16x1048576_S16x64x64x256 : S16x1048576.ShapeCasts S16x64x64x256
  dot_S2048x256_S256x32_S2048x32_1_0_0_1_n_n_wf : DotDims.WF S2048x256 S256x32 S2048x32 [1] [0] [0] [1] [] []
  dot_S2048x256_S256x256_S2048x256_1_0_0_1_n_n_wf : DotDims.WF S2048x256 S256x256 S2048x256 [1] [0] [0] [1] [] []
  dot_S16x16384_S16x16384_S16x16_1_1_0_0_n_n_wf : DotDims.WF S16x16384 S16x16384 S16x16 [1] [1] [0] [0] [] []
  dot_S16x16_S16x32768_S16x32768_1_0_0_1_n_n_wf : DotDims.WF S16x16 S16x32768 S16x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x32.size a ≤ S65536x32.size a
  hwx0_7 : ∀ i : grid0.Coords, EltTy.bits .f32 = 32 ∨ (Rect.block (s := S65536x32) S2048x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x32.size a ≤ S65536x32.size a
  hwx0_8 : ∀ i : grid0.Coords, EltTy.bits .f32 = 32 ∨ (Rect.block (s := S65536x32) S2048x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S65536x256.size a
  hwx0_9 : ∀ i : grid0.Coords, EltTy.bits .f32 = 32 ∨ (Rect.block (s := S65536x256) S2048x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16384.size a ≤ S16x131072.size a
  hwx1_0 : ∀ i : grid1.Coords, EltTy.bits .f32 = 32 ∨ (Rect.block (s := S16x131072) S16x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x16384.size a ≤ S16x131072.size a
  hwx1_1 : ∀ i : grid1.Coords, EltTy.bits .f32 = 32 ∨ (Rect.block (s := S16x131072) S16x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x16.size a ≤ S16x16.size a
  hwx2_0 : ∀ i : grid2.Coords, EltTy.bits .f32 = 32 ∨ (Rect.block (s := S16x16) S16x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x32768.size a ≤ S16x1048576.size a
  hwx2_1 : ∀ i : grid2.Coords, EltTy.bits .f32 = 32 ∨ (Rect.block (s := S16x1048576) S16x32768.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x32768.size a ≤ S16x1048576.size a
  hwx2_2 : ∀ i : grid2.Coords, EltTy.bits .f32 = 32 ∨ (Rect.block (s := S16x1048576) S16x32768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16x32768.size a ≤ S16x1048576.size a
  hwx2_4 : ∀ i : grid2.Coords, EltTy.bits .f32 = 32 ∨ (Rect.block (s := S16x1048576) S16x32768.size (cc2_transform_4 i) (hinb2_4 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S16x16384_S16x16384_S16x16_1_1_0_0_n_n : DotDims S16x16384 S16x16384 S16x16 where
  lhsContracting := [1]
  rhsContracting := [1]
  lhsNonContracting := [0]
  rhsNonContracting := [0]
  lhsBatch := []
  rhsBatch := []
  wf := dot_S16x16384_S16x16384_S16x16_1_1_0_0_n_n_wf
def dot_S16x16_S16x32768_S16x32768_1_0_0_1_n_n : DotDims S16x16 S16x32768 S16x32768 where
  lhsContracting := [1]
  rhsContracting := [0]
  lhsNonContracting := [0]
  rhsNonContracting := [1]
  lhsBatch := []
  rhsBatch := []
  wf := dot_S16x16_S16x32768_S16x32768_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S2048x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S2048x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S16x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S16x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S16x16.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S16x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v7) S16x32768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S16x32768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S16x32768.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16x64x64x256 : Shape := ⟨4, ![16, 64, 64, 256]⟩
abbrev S256x32 : Shape := ⟨2, ![256, 32]⟩
abbrev S256x256 : Shape := ⟨2, ![256, 256]⟩
abbrev S32 : Shape := ⟨1, ![32]⟩
abbrev S256 : Shape := ⟨1, ![256]⟩
abbrev S1 : Shape := ⟨1, ![1]⟩
abbrev S16x64x64x32 : Shape := ⟨4, ![16, 64, 64, 32]⟩
abbrev S1x1x1x32 : Shape := ⟨4, ![1, 1, 1, 32]⟩
abbrev S1x1x1x256 : Shape := ⟨4, ![1, 1, 1, 256]⟩
abbrev S16x131072 : Shape := ⟨2, ![16, 131072]⟩
abbrev S16x1048576 : Shape := ⟨2, ![16, 1048576]⟩
abbrev S131072x16 : Shape := ⟨2, ![131072, 16]⟩
abbrev S16x16 : Shape := ⟨2, ![16, 16]⟩
abbrev S_ : Shape := ⟨0, ![]⟩
abbrev S16 : Shape := ⟨1, ![16]⟩
abbrev S16x1 : Shape := ⟨2, ![16, 1]⟩
abbrev S1x1x1x1 : Shape := ⟨4, ![1, 1, 1, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S32, .f32⟩
  | .hbm, ⟨5, _⟩ => ⟨S32, .f32⟩
  | .hbm, ⟨6, _⟩ => ⟨S256, .f32⟩
  | .hbm, ⟨7, _⟩ => ⟨S1, .f32⟩
  | .hbm, ⟨8, _⟩ => ⟨S16x64x64x32, .f32⟩
  | .hbm, ⟨9, _⟩ => ⟨S1x1x1x32, .f32⟩
  | .hbm, ⟨10, _⟩ => ⟨S16x64x64x32, .f32⟩
  | .hbm, ⟨11, _⟩ => ⟨S16x64x64x32, .f32⟩
  | .hbm, ⟨12, _⟩ => ⟨S16x64x64x32, .f32⟩
  | .hbm, ⟨13, _⟩ => ⟨S1x1x1x32, .f32⟩
  | .hbm, ⟨14, _⟩ => ⟨S16x64x64x32, .f32⟩
  | .hbm, ⟨15, _⟩ => ⟨S16x64x64x32, .f32⟩
  | .hbm, ⟨16, _⟩ => ⟨S16x64x64x256, .f32⟩
  | .hbm, ⟨17, _⟩ => ⟨S1x1x1x256, .f32⟩
  | .hbm, ⟨18, _⟩ => ⟨S16x64x64x256, .f32⟩
  | .hbm, ⟨19, _⟩ => ⟨S16x64x64x256, .f32⟩
  | .hbm, ⟨20, _⟩ => ⟨S16x131072, .f32⟩
  | .hbm, ⟨21, _⟩ => ⟨S16x131072, .f32⟩
  | .hbm, ⟨22, _⟩ => ⟨S16x1048576, .f32⟩
  | .hbm, ⟨23, _⟩ => ⟨S131072x16, .f32⟩
  | .hbm, ⟨24, _⟩ => ⟨S16x16, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16x1, .f32⟩
  | .hbm, ⟨31, _⟩ => ⟨S16x16, .f32⟩
  | .hbm, ⟨32, _⟩ => ⟨S16x16, .f32⟩
  | .hbm, ⟨33, _⟩ => ⟨S16x16, .f32⟩
  | .hbm, ⟨34, _⟩ => ⟨S_, .f32⟩
  | .hbm, ⟨35, _⟩ => ⟨S16, .f32⟩
  | .hbm, ⟨36, _⟩ => ⟨S16x1, .f32⟩
  | .hbm, ⟨37, _⟩ => ⟨S16x16, .f32⟩
  | .hbm, ⟨38, _⟩ => ⟨S16x16, .f32⟩
  | .hbm, ⟨39, _⟩ => ⟨S16x1048576, .f32⟩
  | .hbm, ⟨40, _⟩ => ⟨S16x64x64x256, .f32⟩
  | .hbm, ⟨41, _⟩ => ⟨S1x1x1x1, .f32⟩
  | .hbm, ⟨42, _⟩ => ⟨S16x64x64x256, .f32⟩
  | .hbm, ⟨43, _⟩ => ⟨S16x64x64x256, .f32⟩
  | .hbm, ⟨44, _⟩ => ⟨S16x64x64x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S16x64x64x32_0_1_2_3 : S1x1x1x32.BroadcastsInDim S16x64x64x32 (![0, 1, 2, 3] : Fin 4 → Fin S16x64x64x32.rank)
  bcast_S256_S1x1x1x256_3 : S256.BroadcastsInDim S1x1x1x256 (![3] : Fin 1 → Fin S1x1x1x256.rank)
  bcast_S1x1x1x256_S16x64x64x256_0_1_2_3 : S1x1x1x256.BroadcastsInDim S16x64x64x256 (![0, 1, 2, 3] : Fin 4 → Fin S16x64x64x256.rank)
  shapeCasts_S16x64x64x32_S16x131072 : S16x64x64x32.ShapeCasts S16x131072
  shapeCasts_S16x64x64x256_S16x1048576 : S16x64x64x256.ShapeCasts S16x1048576
  transposes_S16x131072_S131072x16_1_0 : S16x131072.Transposes [1, 0] S131072x16
  reducesTo_S16x16_S16_d1 : S16x16.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S16x1048576_S16x64x64x256 : S16x1048576.ShapeCasts S16x64x64x256
  bcast_S1_S1x1x1x1_3 : S1.BroadcastsInDim S1x1x1x1 (![3] : Fin 1 → Fin S1x1x1x1.rank)
  bcast_S1x1x1x1_S16x64x64x256_0_1_2_3 : S1x1x1x1.BroadcastsInDim S16x64x64x256 (![0, 1, 2, 3] : Fin 4 → Fin S16x64x64x256.rank)
  dot_S16x64x64x256_S256x32_S16x64x64x32_3_0_012_1_n_n_wf : DotDims.WF S16x64x64x256 S256x32 S16x64x64x32 [3] [0] [0, 1, 2] [1] [] []
  dot_S16x64x64x256_S256x256_S16x64x64x256_3_0_012_1_n_n_wf : DotDims.WF S16x64x64x256 S256x256 S16x64x64x256 [3] [0] [0, 1, 2] [1] [] []
  dot_S16x131072_S131072x16_S16x16_1_0_0_1_n_n_wf : DotDims.WF S16x131072 S131072x16 S16x16 [1] [0] [0] [1] [] []
  dot_S16x16_S16x1048576_S16x1048576_1_0_0_1_n_n_wf : DotDims.WF S16x16 S16x1048576 S16x1048576 [1] [0] [0] [1] [] []

variable [Facts₀]

def dot_S16x64x64x256_S256x32_S16x64x64x32_3_0_012_1_n_n : DotDims S16x64x64x256 S256x32 S16x64x64x32 where
  lhsContracting := [3]
  rhsContracting := [0]
  lhsNonContracting := [0, 1, 2]
  rhsNonContracting := [1]
  lhsBatch := []
  rhsBatch := []
  wf := dot_S16x64x64x256_S256x32_S16x64x64x32_3_0_012_1_n_n_wf
def dot_S16x64x64x256_S256x256_S16x64x64x256_3_0_012_1_n_n : DotDims S16x64x64x256 S256x256 S16x64x64x256 where
  lhsContracting := [3]
  rhsContracting := [0]
  lhsNonContracting := [0, 1, 2]
  rhsNonContracting := [1]
  lhsBatch := []
  rhsBatch := []
  wf := dot_S16x64x64x256_S256x256_S16x64x64x256_3_0_012_1_n_n_wf
def dot_S16x131072_S131072x16_S16x16_1_0_0_1_n_n : DotDims S16x131072 S131072x16 S16x16 where
  lhsContracting := [1]
  rhsContracting := [0]
  lhsNonContracting := [0]
  rhsNonContracting := [1]
  lhsBatch := []
  rhsBatch := []
  wf := dot_S16x131072_S131072x16_S16x16_1_0_0_1_n_n_wf
def dot_S16x16_S16x1048576_S16x1048576_1_0_0_1_n_n : DotDims S16x16 S16x1048576 S16x1048576 where
  lhsContracting := [1]
  rhsContracting := [0]
  lhsNonContracting := [0]
  rhsNonContracting := [1]
  lhsBatch := []
  rhsBatch := []
  wf := dot_S16x16_S16x1048576_S16x1048576_1_0_0_1_n_n_wf

class Facts : Prop extends Facts₀ where

variable [Facts]
-- ==== Proof.Math.lean ====
/-
  The kernel's three stages as whole-array functions over the extended reals, index by index.

  * `proj32` / `proj256`: every pixel row of the flattened image times a weight matrix, plus one bias row;
  * `gram`: the 16×16 matrix of inner products of the rows of two 16×131072 arrays;
  * `softmaxRows`: the row-wise softmax, kept as the host operations that compute it (both programs apply the same
    operations to the same matrix, so it is carried as one function and never opened);
  * `mix`: the attention weights applied to the flattened values, scaled by one scalar, plus the flattened image.
-/
import proofs.«121409_j13391708029779_1_alg».proof.Proof.Gen.KernelIdeal
import Idealize.ShloMosaic.Lib.ValueIdx
import Idealize.ShloMosaic.PureOps.Ideal.Laws

noncomputable section

namespace Cert.KernelIdeal.Math

open Cert.KernelIdeal Cert.KernelIdeal.Facts₀ Idealize.ShloMosaic Idealize.ShloMosaic.ValueIdx

/-- Row `r` of `x` against column `d` of a 256×32 weight matrix, plus entry `d` of the bias row. -/
def proj32 (x : Vec Ideal S65536x256 .f32) (W : Vec Ideal S256x32 .f32) (b : Vec Ideal S1x32 .f32) : Vec Ideal S65536x32 .f32 :=
  fun i => (∑ k : Fin 256, x (ix2 (i 0) k) * W (ix2 k (i 1))) + b (ix2 (0 : Fin 1) (i 1))

/-- The same with a 256×256 weight matrix. -/
def proj256 (x : Vec Ideal S65536x256 .f32) (W : Vec Ideal S256x256 .f32) (b : Vec Ideal S1x256 .f32) : Vec Ideal S65536x256 .f32 :=
  fun i => (∑ k : Fin 256, x (ix2 (i 0) k) * W (ix2 k (i 1))) + b (ix2 (0 : Fin 1) (i 1))

/-- Entry `(a, b)`: the inner product of row `a` of `g` with row `b` of `f`. -/
def gram (g f : Vec Ideal S16x131072 .f32) : Vec Ideal S16x16 .f32 :=
  fun i => ∑ k : Fin 131072, g (ix2 (i 0) k) * f (ix2 (i 1) k)

/-- `exp (s − rowmax s)`, as the host computes it. -/
def expShifted (s : Vec Ideal S16x16 .f32) : Vec Ideal S16x16 .f32 :=
  Host.exp (F := Ideal) (subf s (broadcastInDim S16x16 ![0, 1] bcast_S16x1_S16x16_0_1 (broadcastInDim S16x1 ![0] bcast_S16_S16x1_0
    (maximumf (broadcastInDim S16 ![] bcast_S_S16 (constant (F := Ideal) S_ .f32 0xFF800000#32))
      (Host.reduce FloatOps.maximumf s (constant (F := Ideal) S_ .f32 0xFF800000#32) reducesTo_S16x16_S16_d1 h_S_)))))

/-- The row-wise softmax, as the host computes it: `exp (s − rowmax s)` over its row sums. -/
def softmaxRows (s : Vec Ideal S16x16 .f32) : Vec Ideal S16x16 .f32 :=
  Host.divf (F := Ideal) (expShifted s) (broadcastInDim S16x16 ![0, 1] bcast_S16x1_S16x16_0_1 (broadcastInDim S16x1 ![0] bcast_S16_S16x1_0
    (Host.reduceAdd (F := Ideal) (expShifted s) (constant (F := Ideal) S_ .f32 0x00000000#32) reducesTo_S16x16_S16_d1 h_S_)))

/-- Entry `(a, n)`: `γ · Σ_b β (a, b) · h (b, n) + x (a, n)`. -/
def mix (β : Vec Ideal S16x16 .f32) (h x : Vec Ideal S16x1048576 .f32) (γ : Vec Ideal S1x1 .f32) : Vec Ideal S16x1048576 .f32 :=
  fun i => γ (ix2 (0 : Fin 1) (0 : Fin 1)) * (∑ k : Fin 16, β (ix2 (i 0) k) * h (ix2 k (i 1))) + x i

end Cert.KernelIdeal.Math

end
-- ==== Proof.HostGlue.lean ====
/-
  The buffer contents at the three pallas_calls' entries and at the return, read back through the host operations
  between them: each is a reshape of an argument, a reshape of an earlier pallas_call's output array, or the
  row-wise softmax of the second pallas_call's output.
-/
import proofs.«121409_j13391708029779_1_alg».proof.Proof.Gen.KernelIdeal.Frame
import proofs.«121409_j13391708029779_1_alg».proof.Proof.Math
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## At the first pallas_call's entry: the flattened image, the weights, the one-row biases -/

theorem V1_main_v0 (c : Dev nD) :
    V1 m ρ c main_v0 = shapeCast S65536x256 (m ((c : Thread nD τ).loc main_arg0)) shapeCasts_S16x64x64x256_S65536x256 := by
  show StableHlo.after hostOps0 (W0 m ρ c) (Proc.devRef .tc main_v0) = _
  after_results
  rfl

theorem V1_main_v1 (c : Dev nD) :
    V1 m ρ c main_v1 = shapeCast S1x32 (m ((c : Thread nD τ).loc main_arg4)) shapeCasts_S32_S1x32 := by
  show StableHlo.after hostOps0 (W0 m ρ c) (Proc.devRef .tc main_v1) = _
  after_results
  rfl

theorem V1_main_v2 (c : Dev nD) :
    V1 m ρ c main_v2 = shapeCast S1x32 (m ((c : Thread nD τ).loc main_arg5)) shapeCasts_S32_S1x32 := by
  show StableHlo.after hostOps0 (W0 m ρ c) (Proc.devRef .tc main_v2) = _
  after_results
  rfl

theorem V1_main_v3 (c : Dev nD) :
    V1 m ρ c main_v3 = shapeCast S1x256 (m ((c : Thread nD τ).loc main_arg6)) shapeCasts_S256_S1x256 := by
  show StableHlo.after hostOps0 (W0 m ρ c) (Proc.devRef .tc main_v3) = _
  after_results
  rfl

theorem V1_main_arg1 (c : Dev nD) : V1 m ρ c main_arg1 = (m ((c : Thread nD τ).loc main_arg1)) := by
  show StableHlo.after hostOps0 (W0 m ρ c) (Proc.devRef .tc main_arg1) = _
  after_results

theorem V1_main_arg2 (c : Dev nD) : V1 m ρ c main_arg2 = (m ((c : Thread nD τ).loc main_arg2)) := by
  show StableHlo.after hostOps0 (W0 m ρ c) (Proc.devRef .tc main_arg2) = _
  after_results

theorem V1_main_arg3 (c : Dev nD) : V1 m ρ c main_arg3 = (m ((c : Thread nD τ).loc main_arg3)) := by
  show StableHlo.after hostOps0 (W0 m ρ c) (Proc.devRef .tc main_arg3) = _
  after_results

/-! ## At the second pallas_call's entry: the first one's two narrow outputs, flattened per batch row -/

theorem V3_main_v5 (c : Dev nD) :
    V3 m ρ c main_v5 = shapeCast S16x131072 ((dat0 (V1 m ρ) c).arrAt 8 cfg0.N) shapeCasts_S65536x32_S16x131072 := by
  show StableHlo.after hostOps1 (W2 m ρ c) (Proc.devRef .tc main_v5) = _
  after_results
  exact congrArg (fun z => shapeCast S16x131072 z shapeCasts_S65536x32_S16x131072) (W2_arr m ρ c 8)

theorem V3_main_v6 (c : Dev nD) :
    V3 m ρ c main_v6 = shapeCast S16x131072 ((dat0 (V1 m ρ) c).arrAt 7 cfg0.N) shapeCasts_S65536x32_S16x131072 := by
  show StableHlo.after hostOps1 (W2 m ρ c) (Proc.devRef .tc main_v6) = _
  after_results
  exact congrArg (fun z => shapeCast S16x131072 z shapeCasts_S65536x32_S16x131072) (W2_arr m ρ c 7)

/-! ## At the third pallas_call's entry: the softmax of the inner products, the flattened values, the flattened
    image, the scalar -/

theorem V5_main_v20 (c : Dev nD) :
    V5 m ρ c main_v20 = Math.softmaxRows ((dat1 (V3 m ρ) c).arrAt 2 cfg1.N) := by
  show StableHlo.after hostOps2 (W4 m ρ c) (Proc.devRef .tc main_v20) = _
  after_results
  rw [show W4 m ρ c (Proc.devRef .tc main_v9) = (dat1 (V3 m ρ) c).arrAt 2 cfg1.N from W4_arr m ρ c 2]
  rfl

theorem V5_main_v7 (c : Dev nD) :
    V5 m ρ c main_v7 = shapeCast S16x1048576 ((dat0 (V1 m ρ) c).arrAt 9 cfg0.N) shapeCasts_S65536x256_S16x1048576 := by
  show StableHlo.after hostOps2 (W4 m ρ c) (Proc.devRef .tc main_v7) = _
  after_results
  rw [W4_of_ne m ρ c main_v7 (by decide)]
  show StableHlo.after hostOps1 (W2 m ρ c) (Proc.devRef .tc main_v7) = _
  after_results
  exact congrArg (fun z => shapeCast S16x1048576 z shapeCasts_S65536x256_S16x1048576) (W2_arr m ρ c 9)

theorem V5_main_v8 (c : Dev nD) :
    V5 m ρ c main_v8 = shapeCast S16x1048576 (m ((c : Thread nD τ).loc main_arg0)) shapeCasts_S16x64x64x256_S16x1048576 := by
  show StableHlo.after hostOps2 (W4 m ρ c) (Proc.devRef .tc main_v8) = _
  after_results
  rw [W4_of_ne m ρ c main_v8 (by decide)]
  show StableHlo.after hostOps1 (W2 m ρ c) (Proc.devRef .tc main_v8) = _
  after_results
  rw [W2_of_ne m ρ c main_arg0 (by decide)]
  show shapeCast S16x1048576 (StableHlo.after hostOps0 (W0 m ρ c) (Proc.devRef .tc main_arg0)) _ = _
  after_results

theorem V5_main_v21 (c : Dev nD) :
    V5 m ρ c main_v21 = shapeCast S1x1 (m ((c : Thread nD τ).loc main_arg7)) shapeCasts_S1_S1x1 := by
  show StableHlo.after hostOps2 (W4 m ρ c) (Proc.devRef .tc main_v21) = _
  after_results
  rw [W4_of_ne m ρ c main_arg7 (by decide)]
  show shapeCast S1x1 (StableHlo.after hostOps1 (W2 m ρ c) (Proc.devRef .tc main_arg7)) _ = _
  after_results
  rw [W2_of_ne m ρ c main_arg7 (by decide)]
  show shapeCast S1x1 (StableHlo.after hostOps0 (W0 m ρ c) (Proc.devRef .tc main_arg7)) _ = _
  after_results

/-! ## At the return: the third pallas_call's output, given back its four axes -/

theorem W7_main_v23 (c : Dev nD) :
    W7 m ρ c (Proc.devRef .tc main_v23) = shapeCast S16x64x64x256 ((dat2 (V5 m ρ) c).arrAt 4 cfg2.N) shapeCasts_S16x1048576_S16x64x64x256 := by
  show StableHlo.after hostOps3 (W6 m ρ c) (Proc.devRef .tc main_v23) = _
  after_results
  exact congrArg (fun z => shapeCast S16x64x64x256 z shapeCasts_S16x1048576_S16x64x64x256) (W6_arr m ρ c 4)

end Cert.KernelIdeal.Val

end
-- ==== Proof.KernelResult.lean ====
/-
  The kernel program's result as ONE function of its eight arguments over the extended reals: the three
  pallas_calls' whole-array functions composed through the reshapes and the softmax between them.
-/
import proofs.«121409_j13391708029779_1_alg».proof.Proof.Math
import Idealize.ShloMosaic.Lib.Pipeline.Value

noncomputable section

namespace Cert.KernelIdeal.Val

open Cert.KernelIdeal Cert.KernelIdeal.Gen Idealize.ShloMosaic

/-- The flattened image, one pixel per row. -/
def rows (x : Vec Ideal S16x64x64x256 .f32) : Vec Ideal S65536x256 .f32 :=
  shapeCast S65536x256 x shapeCasts_S16x64x64x256_S65536x256

/-- A narrow projection of the image (32 channels), flattened per batch row. -/
def flat32 (x : Vec Ideal S16x64x64x256 .f32) (W : Vec Ideal S256x32 .f32) (b : Vec Ideal S32 .f32) : Vec Ideal S16x131072 .f32 :=
  shapeCast S16x131072 (Math.proj32 (rows x) W (shapeCast S1x32 b shapeCasts_S32_S1x32)) shapeCasts_S65536x32_S16x131072

/-- The wide projection of the image (256 channels), flattened per batch row. -/
def flat256 (x : Vec Ideal S16x64x64x256 .f32) (W : Vec Ideal S256x256 .f32) (b : Vec Ideal S256 .f32) : Vec Ideal S16x1048576 .f32 :=
  shapeCast S16x1048576 (Math.proj256 (rows x) W (shapeCast S1x256 b shapeCasts_S256_S1x256)) shapeCasts_S65536x256_S16x1048576

/-- The attention weights over the batch: the row-wise softmax of the inner products of the two narrow projections. -/
def attn (x : Vec Ideal S16x64x64x256 .f32) (Wf Wg : Vec Ideal S256x32 .f32) (bf bg : Vec Ideal S32 .f32) : Vec Ideal S16x16 .f32 :=
  Math.softmaxRows (Math.gram (flat32 x Wg bg) (flat32 x Wf bf))

/-- The kernel's result: the attention weights applied to the wide projection, scaled, plus the image. -/
def result (x : Vec Ideal S16x64x64x256 .f32) (Wf Wg : Vec Ideal S256x32 .f32) (Wh : Vec Ideal S256x256 .f32)
    (bf bg : Vec Ideal S32 .f32) (bh : Vec Ideal S256 .f32) (γ : Vec Ideal S1 .f32) : Vec Ideal S16x64x64x256 .f32 :=
  shapeCast S16x64x64x256
    (Math.mix (attn x Wf Wg bf bg) (flat256 x Wh bh) (shapeCast S16x1048576 x shapeCasts_S16x64x64x256_S16x1048576)
      (shapeCast S1x1 γ shapeCasts_S1_S1x1))
    shapeCasts_S16x1048576_S16x64x64x256

end Cert.KernelIdeal.Val

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Region0.lean ====
/-
  The first pallas_call, read as values: after its 32 grid points each of its three output arrays holds, at every
  index, the image row times the weight column plus the bias entry (a block of 2048 rows per point; the blocks tile
  the rows).
-/
import proofs.«121409_j13391708029779_1_alg».proof.Proof.Gen.KernelIdeal.Frame
import proofs.«121409_j13391708029779_1_alg».proof.Proof.Math
import proofs.«121409_j13391708029779_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Region0

/-! ## The three payloads at an index -/

/-- The first projection's block at `(p, q)`: row `p` of the image block against column `q` of the weights, plus
    the bias entry `q` (the casts to bf16 are the identity here and the product accumulates from zero). -/
theorem pay_f_apply (x : Vec Ideal S2048x256 .f32) (w : Vec Ideal S256x32 .f32) (b : Vec Ideal S1x32 .f32) (p : Fin 2048) (q : Fin 32) :
    k0_pay2 (F := Ideal) x w b (ix2 p q) = (∑ k : Fin 256, x (ix2 p k) * w (ix2 k q)) + b (ix2 (0 : Fin 1) q) := by
  have hm := Cert.RowOps.matmul_apply (M := 2048) (K := 256) (N := 32) dot_S2048x256_S256x32_S2048x32_1_0_0_1_n_n_wf none
    (truncf (F := Ideal) .bf16 (shapeCast S2048x256 x shapeCasts_S2048x256_S2048x256) bitsLt_bf16_f32)
    (truncf (F := Ideal) .bf16 w bitsLt_bf16_f32) p q
  have hb := Cert.RowOps.rowParam_spread_apply (a := 2048) (b := 32) b shapeCasts_S1x32_S1x32 broadcasts_S1x32_S2048x32 p q
  unfold k0_pay2 k0_pay1
  refine (addf_apply _ _ _).trans ?_
  refine congrArg₂ (· + ·) (hm.trans ?_) hb
  rw [shapeCast_self]
  rfl

/-- The second projection's block at `(p, q)`: the same sum against the second weights and bias. -/
theorem pay_g_apply (x : Vec Ideal S2048x256 .f32) (w : Vec Ideal S256x32 .f32) (b : Vec Ideal S1x32 .f32) (p : Fin 2048) (q : Fin 32) :
    k0_pay3 (F := Ideal) x w b (ix2 p q) = (∑ k : Fin 256, x (ix2 p k) * w (ix2 k q)) + b (ix2 (0 : Fin 1) q) := by
  have hm := Cert.RowOps.matmul_apply (M := 2048) (K := 256) (N := 32) dot_S2048x256_S256x32_S2048x32_1_0_0_1_n_n_wf none
    (truncf (F := Ideal) .bf16 (shapeCast S2048x256 x shapeCasts_S2048x256_S2048x256) bitsLt_bf16_f32)
    (truncf (F := Ideal) .bf16 w bitsLt_bf16_f32) p q
  have hb := Cert.RowOps.rowParam_spread_apply (a := 2048) (b := 32) b shapeCasts_S1x32_S1x32 broadcasts_S1x32_S2048x32 p q
  unfold k0_pay3 k0_pay1
  refine (addf_apply _ _ _).trans ?_
  refine congrArg₂ (· + ·) (hm.trans ?_) hb
  rw [shapeCast_self]
  rfl

/-- The third projection's block at `(p, q)`: the same sum against the 256×256 weights and their bias. -/
theorem pay_h_apply (x : Vec Ideal S2048x256 .f32) (w : Vec Ideal S256x256 .f32) (b : Vec Ideal S1x256 .f32) (p : Fin 2048) (q : Fin 256) :
    k0_pay4 (F := Ideal) x w b (ix2 p q) = (∑ k : Fin 256, x (ix2 p k) * w (ix2 k q)) + b (ix2 (0 : Fin 1) q) := by
  have hm := Cert.RowOps.matmul_apply (M := 2048) (K := 256) (N := 256) dot_S2048x256_S256x256_S2048x256_1_0_0_1_n_n_wf none
    (truncf (F := Ideal) .bf16 (shapeCast S2048x256 x shapeCasts_S2048x256_S2048x256) bitsLt_bf16_f32)
    (truncf (F := Ideal) .bf16 w bitsLt_bf16_f32) p q
  have hb := Cert.RowOps.rowParam_spread_apply (a := 2048) (b := 256) b shapeCasts_S1x256_S1x256 broadcasts_S1x256_S2048x256 p q
  unfold k0_pay4 k0_pay1
  refine (addf_apply _ _ _).trans ?_
  refine congrArg₂ (· + ·) (hm.trans ?_) hb
  rw [shapeCast_self]
  rfl

/-! ## A block against the whole-array function -/

/-- When row `p` of the image block is row `i 0` of the image, column `q` of the weight block is column `i 1` of the
    weights and entry `q` of the bias block is entry `i 1` of the bias, entry `(p, q)` of the first projection's block
    is entry `i` of the whole-array projection. -/
theorem block_f (X : Vec Ideal S65536x256 .f32) (W : Vec Ideal S256x32 .f32) (B : Vec Ideal S1x32 .f32)
    (x : Vec Ideal S2048x256 .f32) (w : Vec Ideal S256x32 .f32) (b : Vec Ideal S1x32 .f32)
    (p : Fin 2048) (q : Fin 32) (i : S65536x32.Idx)
    (hx : ∀ k : Fin 256, x (ix2 p k) = X (ix2 (i 0) k))
    (hw : ∀ k : Fin 256, w (ix2 k q) = W (ix2 k (i 1)))
    (hb : b (ix2 (0 : Fin 1) q) = B (ix2 (0 : Fin 1) (i 1))) :
    k0_pay2 (F := Ideal) x w b (ix2 p q) = Math.proj32 X W B i := by
  rw [pay_f_apply]
  unfold Math.proj32
  rw [hb]
  exact congrArg (· + _) (Finset.sum_congr rfl fun k _ => by rw [hx, hw])

/-- The same for the second projection's block. -/
theorem block_g (X : Vec Ideal S65536x256 .f32) (W : Vec Ideal S256x32 .f32) (B : Vec Ideal S1x32 .f32)
    (x : Vec Ideal S2048x256 .f32) (w : Vec Ideal S256x32 .f32) (b : Vec Ideal S1x32 .f32)
    (p : Fin 2048) (q : Fin 32) (i : S65536x32.Idx)
    (hx : ∀ k : Fin 256, x (ix2 p k) = X (ix2 (i 0) k))
    (hw : ∀ k : Fin 256, w (ix2 k q) = W (ix2 k (i 1)))
    (hb : b (ix2 (0 : Fin 1) q) = B (ix2 (0 : Fin 1) (i 1))) :
    k0_pay3 (F := Ideal) x w b (ix2 p q) = Math.proj32 X W B i := by
  rw [pay_g_apply]
  unfold Math.proj32
  rw [hb]
  exact congrArg (· + _) (Finset.sum_congr rfl fun k _ => by rw [hx, hw])

/-- The same for the third projection's block, against the 256-column function. -/
theorem block_h (X : Vec Ideal S65536x256 .f32) (W : Vec Ideal S256x256 .f32) (B : Vec Ideal S1x256 .f32)
    (x : Vec Ideal S2048x256 .f32) (w : Vec Ideal S256x256 .f32) (b : Vec Ideal S1x256 .f32)
    (p : Fin 2048) (q : Fin 256) (i : S65536x256.Idx)
    (hx : ∀ k : Fin 256, x (ix2 p k) = X (ix2 (i 0) k))
    (hw : ∀ k : Fin 256, w (ix2 k q) = W (ix2 k (i 1)))
    (hb : b (ix2 (0 : Fin 1) q) = B (ix2 (0 : Fin 1) (i 1))) :
    k0_pay4 (F := Ideal) x w b (ix2 p q) = Math.proj256 X W B i := by
  rw [pay_h_apply]
  unfold Math.proj256
  rw [hb]
  exact congrArg (· + _) (Finset.sum_congr rfl fun k _ => by rw [hx, hw])

/-! ## The index maps over the grid -/

theorem hz : (![0, 0] : Fin 2 → Nat) = fun _ => 0 := funext fun a => by fin_cases a <;> rfl

/-- The image block and the three output blocks move together along the rows, at block index the point's number and
    column block 0; every weight and bias block is the whole array, at block index `(0, 0)`. -/
theorem idx_facts : ∀ t : Fin cfg0.N,
    (win0_0.index t (0 : Fin 2) = t.val ∧ win0_0.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Every block of rows is some point's, for each of the three outputs. -/
theorem idx_onto_f : ∀ q0 : Fin 32, ∃ t : Fin cfg0.N, win0_7.index t = ![q0.val, 0] :=
  (by decide +kernel : ∀ q0 : Fin 32, ∃ t : Fin grid0.N, win0_7.index t = ![q0.val, 0])
theorem idx_onto_g : ∀ q0 : Fin 32, ∃ t : Fin cfg0.N, win0_8.index t = ![q0.val, 0] :=
  (by decide +kernel : ∀ q0 : Fin 32, ∃ t : Fin grid0.N, win0_8.index t = ![q0.val, 0])
theorem idx_onto_h : ∀ q0 : Fin 32, ∃ t : Fin cfg0.N, win0_9.index t = ![q0.val, 0] :=
  (by decide +kernel : ∀ q0 : Fin 32, ∃ t : Fin grid0.N, win0_9.index t = ![q0.val, 0])

/-! ## The first output -/

/-- What point `t` writes back to the first output is block `t` of the whole-array projection. -/
theorem flushed_f (c : Dev nD) (t : Fin cfg0.N) :
    (dat0 V c).flushed 7 t = ((cfg0.win 7).blk t).view.read (Elt Ideal) (Math.proj32 (V c main_v0) (V c main_arg1) (V c main_v1)) := by
  show (cfg0.win 7).cut (grid0.coords t) ((dat0 V c).after 7 t) = _
  rw [after0_7]
  unfold out0_7
  rw [View.canon_unit_zero hz]
  simp only [View.ld_unit_zero (S := S2048x256) hz, View.ld_unit_zero (S := S256x32) hz, View.ld_unit_zero (S := S1x32) hz]
  obtain ⟨⟨e00, e01⟩, ⟨e70, e71⟩, -, -, ⟨e10, e11⟩, -, -, ⟨e40, e41⟩, -, -⟩ := idx_facts t
  funext j
  obtain ⟨p, q, rfl⟩ : ∃ (p : Fin 2048) (q : Fin 32), j = ix2 p q := ⟨j 0, j 1, eq_ix2 j⟩
  show k0_pay2 (F := Ideal) (iblk0 V c 0 t) (iblk0 V c 1 t) (iblk0 V c 4 t) (ix2 p q)
    = Math.proj32 (V c main_v0) (V c main_arg1) (V c main_v1) (((cfg0.win 7).blk t).view.emb (ix2 p q))
  refine block_f (V c main_v0) (V c main_arg1) (V c main_v1) (iblk0 V c 0 t) (iblk0 V c 1 t) (iblk0 V c 4 t) p q
    (((cfg0.win 7).blk t).view.emb (ix2 p q)) (fun k => ?_) (fun k => ?_) ?_
  · show V c main_v0 (((cfg0.win 0).blk t).view.emb (ix2 p k)) = V c main_v0 (ix2 ((((cfg0.win 7).blk t).view.emb (ix2 p q)) 0) k)
    refine congrArg (V c main_v0) (funext fun a => Fin.ext ?_)
    match a with
    | ⟨0, _⟩ => show win0_0.index t (0 : Fin 2) * 2048 + 1 * p.val = win0_7.index t (0 : Fin 2) * 2048 + 1 * p.val; omega
    | ⟨1, _⟩ => show win0_0.index t (1 : Fin 2) * 256 + 1 * k.val = k.val; omega
  · show V c main_arg1 (((cfg0.win 1).blk t).view.emb (ix2 k q)) = V c main_arg1 (ix2 k ((((cfg0.win 7).blk t).view.emb (ix2 p q)) 1))
    refine congrArg (V c main_arg1) (funext fun a => Fin.ext ?_)
    match a with
    | ⟨0, _⟩ => show win0_1.index t (0 : Fin 2) * 256 + 1 * k.val = k.val; omega
    | ⟨1, _⟩ => show win0_1.index t (1 : Fin 2) * 32 + 1 * q.val = win0_7.index t (1 : Fin 2) * 32 + 1 * q.val; omega
  · show V c main_v1 (((cfg0.win 4).blk t).view.emb (ix2 (0 : Fin 1) q)) = V c main_v1 (ix2 (0 : Fin 1) ((((cfg0.win 7).blk t).view.emb (ix2 p q)) 1))
    refine congrArg (V c main_v1) (funext fun a => Fin.ext ?_)
    match a with
    | ⟨0, _⟩ => show win0_4.index t (0 : Fin 2) * 1 + 1 * 0 = 0; omega
    | ⟨1, _⟩ => show win0_4.index t (1 : Fin 2) * 32 + 1 * q.val = win0_7.index t (1 : Fin 2) * 32 + 1 * q.val; omega

/-- An index of the first output is in point `t`'s block iff each coordinate is in the block's range on its axis. -/
theorem mem_blk_f (t : Fin cfg0.N) (i : S65536x32.Idx) :
    i ∈ ((cfg0.win 7).blk t).view.set ↔ ∀ a : Fin 2, win0_7.index t a * S2048x32.size a ≤ (i a).val ∧ (i a).val < win0_7.index t a * S2048x32.size a + S2048x32.size a := by
  show i ∈ ((View.whole main_v4_0).slice (win0_7.rect t)).set ↔ _
  rw [View.set_slice_whole, Rect.mem_set_unit]
  exact Iff.rfl

/-- The blocks of 2048 rows tile the first output: row `r` is in the block of point `r / 2048`. -/
theorem cover_f (i : S65536x32.Idx) :
    ∃ t : Fin cfg0.N, (cfg0.win 7).flush t = true ∧ i ∈ ((cfg0.win 7).blk t).view.set := by
  have hi0 : (i 0).val < 65536 := (i 0).isLt
  have hi1 : (i 1).val < 32 := (i 1).isLt
  obtain ⟨t, ht⟩ := idx_onto_f ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk_f]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 32 ≤ (i 1).val ∧ (i 1).val < win0_7.index t (1 : Fin 2) * 32 + 32; omega

/-! ## The second output -/

/-- What point `t` writes back to the second output is block `t` of the whole-array projection. -/
theorem flushed_g (c : Dev nD) (t : Fin cfg0.N) :
    (dat0 V c).flushed 8 t = ((cfg0.win 8).blk t).view.read (Elt Ideal) (Math.proj32 (V c main_v0) (V c main_arg2) (V c main_v2)) := by
  show (cfg0.win 8).cut (grid0.coords t) ((dat0 V c).after 8 t) = _
  rw [after0_8]
  unfold out0_8
  rw [View.canon_unit_zero hz]
  simp only [View.ld_unit_zero (S := S2048x256) hz, View.ld_unit_zero (S := S256x32) hz, View.ld_unit_zero (S := S1x32) hz]
  obtain ⟨⟨e00, e01⟩, -, ⟨e80, e81⟩, -, -, ⟨e20, e21⟩, -, -, ⟨e50, e51⟩, -⟩ := idx_facts t
  funext j
  obtain ⟨p, q, rfl⟩ : ∃ (p : Fin 2048) (q : Fin 32), j = ix2 p q := ⟨j 0, j 1, eq_ix2 j⟩
  show k0_pay3 (F := Ideal) (iblk0 V c 0 t) (iblk0 V c 2 t) (iblk0 V c 5 t) (ix2 p q)
    = Math.proj32 (V c main_v0) (V c main_arg2) (V c main_v2) (((cfg0.win 8).blk t).view.emb (ix2 p q))
  refine block_g (V c main_v0) (V c main_arg2) (V c main_v2) (iblk0 V c 0 t) (iblk0 V c 2 t) (iblk0 V c 5 t) p q
    (((cfg0.win 8).blk t).view.emb (ix2 p q)) (fun k => ?_) (fun k => ?_) ?_
  · show V c main_v0 (((cfg0.win 0).blk t).view.emb (ix2 p k)) = V c main_v0 (ix2 ((((cfg0.win 8).blk t).view.emb (ix2 p q)) 0) k)
    refine congrArg (V c main_v0) (funext fun a => Fin.ext ?_)
    match a with
    | ⟨0, _⟩ => show win0_0.index t (0 : Fin 2) * 2048 + 1 * p.val = win0_8.index t (0 : Fin 2) * 2048 + 1 * p.val; omega
    | ⟨1, _⟩ => show win0_0.index t (1 : Fin 2) * 256 + 1 * k.val = k.val; omega
  · show V c main_arg2 (((cfg0.win 2).blk t).view.emb (ix2 k q)) = V c main_arg2 (ix2 k ((((cfg0.win 8).blk t).view.emb (ix2 p q)) 1))
    refine congrArg (V c main_arg2) (funext fun a => Fin.ext ?_)
    match a with
    | ⟨0, _⟩ => show win0_2.index t (0 : Fin 2) * 256 + 1 * k.val = k.val; omega
    | ⟨1, _⟩ => show win0_2.index t (1 : Fin 2) * 32 + 1 * q.val = win0_8.index t (1 : Fin 2) * 32 + 1 * q.val; omega
  · show V c main_v2 (((cfg0.win 5).blk t).view.emb (ix2 (0 : Fin 1) q)) = V c main_v2 (ix2 (0 : Fin 1) ((((cfg0.win 8).blk t).view.emb (ix2 p q)) 1))
    refine congrArg (V c main_v2) (funext fun a => Fin.ext ?_)
    match a with
    | ⟨0, _⟩ => show win0_5.index t (0 : Fin 2) * 1 + 1 * 0 = 0; omega
    | ⟨1, _⟩ => show win0_5.index t (1 : Fin 2) * 32 + 1 * q.val = win0_8.index t (1 : Fin 2) * 32 + 1 * q.val; omega

/-- An index of the second output is in point `t`'s block iff each coordinate is in the block's range on its axis. -/
theorem mem_blk_g (t : Fin cfg0.N) (i : S65536x32.Idx) :
    i ∈ ((cfg0.win 8).blk t).view.set ↔ ∀ a : Fin 2, win0_8.index t a * S2048x32.size a ≤ (i a).val ∧ (i a).val < win0_8.index t a * S2048x32.size a + S2048x32.size a := by
  show i ∈ ((View.whole main_v4_1).slice (win0_8.rect t)).set ↔ _
  rw [View.set_slice_whole, Rect.mem_set_unit]
  exact Iff.rfl

/-- The blocks of 2048 rows tile the second output. -/
theorem cover_g (i : S65536x32.Idx) :
    ∃ t : Fin cfg0.N, (cfg0.win 8).flush t = true ∧ i ∈ ((cfg0.win 8).blk t).view.set := by
  have hi0 : (i 0).val < 65536 := (i 0).isLt
  have hi1 : (i 1).val < 32 := (i 1).isLt
  obtain ⟨t, ht⟩ := idx_onto_g ⟨(i 0).val / 2048, by omega⟩
  have q0 : win0_8.index t (0 : Fin 2) = (i 0).val / 2048 := congrFun ht 0
  have q1 : win0_8.index t (1 : Fin 2) = 0 := congrFun ht 1
  refine ⟨t, flush0_8 t, ?_⟩
  rw [mem_blk_g]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 32 ≤ (i 1).val ∧ (i 1).val < win0_8.index t (1 : Fin 2) * 32 + 32; omega

/-! ## The third output -/

/-- What point `t` writes back to the third output is block `t` of the whole-array projection. -/
theorem flushed_h (c : Dev nD) (t : Fin cfg0.N) :
    (dat0 V c).flushed 9 t = ((cfg0.win 9).blk t).view.read (Elt Ideal) (Math.proj256 (V c main_v0) (V c main_arg3) (V c main_v3)) := by
  show (cfg0.win 9).cut (grid0.coords t) ((dat0 V c).after 9 t) = _
  rw [after0_9]
  unfold out0_9
  rw [View.canon_unit_zero hz]
  simp only [View.ld_unit_zero (S := S2048x256) hz, View.ld_unit_zero (S := S256x256) hz, View.ld_unit_zero (S := S1x256) hz]
  obtain ⟨⟨e00, e01⟩, -, -, ⟨e90, e91⟩, -, -, ⟨e30, e31⟩, -, -, ⟨e60, e61⟩⟩ := idx_facts t
  funext j
  obtain ⟨p, q, rfl⟩ : ∃ (p : Fin 2048) (q : Fin 256), j = ix2 p q := ⟨j 0, j 1, eq_ix2 j⟩
  show k0_pay4 (F := Ideal) (iblk0 V c 0 t) (iblk0 V c 3 t) (iblk0 V c 6 t) (ix2 p q)
    = Math.proj256 (V c main_v0) (V c main_arg3) (V c main_v3) (((cfg0.win 9).blk t).view.emb (ix2 p q))
  refine block_h (V c main_v0) (V c main_arg3) (V c main_v3) (iblk0 V c 0 t) (iblk0 V c 3 t) (iblk0 V c 6 t) p q
    (((cfg0.win 9).blk t).view.emb (ix2 p q)) (fun k => ?_) (fun k => ?_) ?_
  · show V c main_v0 (((cfg0.win 0).blk t).view.emb (ix2 p k)) = V c main_v0 (ix2 ((((cfg0.win 9).blk t).view.emb (ix2 p q)) 0) k)
    refine congrArg (V c main_v0) (funext fun a => Fin.ext ?_)
    match a with
    | ⟨0, _⟩ => show win0_0.index t (0 : Fin 2) * 2048 + 1 * p.val = win0_9.index t (0 : Fin 2) * 2048 + 1 * p.val; omega
    | ⟨1, _⟩ => show win0_0.index t (1 : Fin 2) * 256 + 1 * k.val = k.val; omega
  · show V c main_arg3 (((cfg0.win 3).blk t).view.emb (ix2 k q)) = V c main_arg3 (ix2 k ((((cfg0.win 9).blk t).view.emb (ix2 p q)) 1))
    refine congrArg (V c main_arg3) (funext fun a => Fin.ext ?_)
    match a with
    | ⟨0, _⟩ => show win0_3.index t (0 : Fin 2) * 256 + 1 * k.val = k.val; omega
    | ⟨1, _⟩ => show win0_3.index t (1 : Fin 2) * 256 + 1 * q.val = win0_9.index t (1 : Fin 2) * 256 + 1 * q.val; omega
  · show V c main_v3 (((cfg0.win 6).blk t).view.emb (ix2 (0 : Fin 1) q)) = V c main_v3 (ix2 (0 : Fin 1) ((((cfg0.win 9).blk t).view.emb (ix2 p q)) 1))
    refine congrArg (V c main_v3) (funext fun a => Fin.ext ?_)
    match a with
    | ⟨0, _⟩ => show win0_6.index t (0 : Fin 2) * 1 + 1 * 0 = 0; omega
    | ⟨1, _⟩ => show win0_6.index t (1 : Fin 2) * 256 + 1 * q.val = win0_9.index t (1 : Fin 2) * 256 + 1 * q.val; omega

/-- An index of the third output is in point `t`'s block iff each coordinate is in the block's range on its axis. -/
theorem mem_blk_h (t : Fin cfg0.N) (i : S65536x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v4_2).slice (win0_9.rect t)).set ↔ _
  rw [View.set_slice_whole, Rect.mem_set_unit]
  exact Iff.rfl

/-- The blocks of 2048 rows tile the third output. -/
theorem cover_h (i : S65536x256.Idx) :
    ∃ t : Fin cfg0.N, (cfg0.win 9).flush t = true ∧ i ∈ ((cfg0.win 9).blk t).view.set := by
  have hi0 : (i 0).val < 65536 := (i 0).isLt
  have hi1 : (i 1).val < 256 := (i 1).isLt
  obtain ⟨t, ht⟩ := idx_onto_h ⟨(i 0).val / 2048, by omega⟩
  have q0 : win0_9.index t (0 : Fin 2) = (i 0).val / 2048 := congrFun ht 0
  have q1 : win0_9.index t (1 : Fin 2) = 0 := congrFun ht 1
  refine ⟨t, flush0_9 t, ?_⟩
  rw [mem_blk_h]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 256 ≤ (i 1).val ∧ (i 1).val < win0_9.index t (1 : Fin 2) * 256 + 256; omega

end Region0

/-! ## The three output arrays after the run -/

theorem region0_f (c : Dev nD) :
    (dat0 V c).arrAt 7 cfg0.N = Math.proj32 (V c main_v0) (V c main_arg1) (V c main_v1) :=
  (dat0 V c).arrAt_eq_of_cover 7 (Math.proj32 (V c main_v0) (V c main_arg1) (V c main_v1)) (fun t _ => Region0.flushed_f V c t) Region0.cover_f

theorem region0_g (c : Dev nD) :
    (dat0 V c).arrAt 8 cfg0.N = Math.proj32 (V c main_v0) (V c main_arg2) (V c main_v2) :=
  (dat0 V c).arrAt_eq_of_cover 8 (Math.proj32 (V c main_v0) (V c main_arg2) (V c main_v2)) (fun t _ => Region0.flushed_g V c t) Region0.cover_g

theorem region0_h (c : Dev nD) :
    (dat0 V c).arrAt 9 cfg0.N = Math.proj256 (V c main_v0) (V c main_arg3) (V c main_v3) :=
  (dat0 V c).arrAt_eq_of_cover 9 (Math.proj256 (V c main_v0) (V c main_arg3) (V c main_v3)) (fun t _ => Region0.flushed_h V c t) Region0.cover_h

end Cert.KernelIdeal.Val

end
-- ==== Proof.Region1.lean ====
/-
  The second pallas_call, read as values: its 16×16 output block is reset at the first of 8 grid points and every
  point adds the inner products over its 16384 columns; after the last point the array holds the inner products over
  all 131072 columns.
-/
import proofs.«121409_j13391708029779_1_alg».proof.Proof.Gen.KernelIdeal.Frame
import proofs.«121409_j13391708029779_1_alg».proof.Proof.Math
import proofs.«121409_j13391708029779_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! The steps: the product read at an index, the two cases' stored values, the running sum over the points, the
    regrouping of the sum, the write-back. -/
namespace Region1

/-! ## General facts -/

theorem hz : (![0, 0] : Fin 2 → Nat) = fun _ => 0 := funext fun a => by fin_cases a <;> rfl

section MatmulT

variable {M K N : ℕ} {φ₁ φ₂ : FTy}

/-- Left operand index of `A·Bᵀ`, kept axis: the output's row. -/
theorem mmT_l0 (wf : DotDims.WF ⟨2, ![M, K]⟩ ⟨2, ![N, K]⟩ ⟨2, ![M, N]⟩ [1] [1] [0] [0] [] [])
    (i : (⟨2, ![M, N]⟩ : Shape).Idx)
    (q : (⟨[1], [1], [0], [0], [], [], wf⟩ : DotDims ⟨2, ![M, K]⟩ ⟨2, ![N, K]⟩ ⟨2, ![M, N]⟩).contr.Idx) :
    ((⟨[1], [1], [0], [0], [], [], wf⟩ : DotDims ⟨2, ![M, K]⟩ ⟨2, ![N, K]⟩ ⟨2, ![M, N]⟩).lhsIdx i q 0).val = (i 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Left operand index, contracted axis: the contraction position. -/
theorem mmT_l1 (wf : DotDims.WF ⟨2, ![M, K]⟩ ⟨2, ![N, K]⟩ ⟨2, ![M, N]⟩ [1] [1] [0] [0] [] [])
    (i : (⟨2, ![M, N]⟩ : Shape).Idx)
    (q : (⟨[1], [1], [0], [0], [], [], wf⟩ : DotDims ⟨2, ![M, K]⟩ ⟨2, ![N, K]⟩ ⟨2, ![M, N]⟩).contr.Idx) :
    ((⟨[1], [1], [0], [0], [], [], wf⟩ : DotDims ⟨2, ![M, K]⟩ ⟨2, ![N, K]⟩ ⟨2, ![M, N]⟩).lhsIdx i q 1).val
      = (q ⟨0, Nat.one_pos⟩).val :=
  (⟨[1], [1], [0], [0], [], [], wf⟩ : DotDims ⟨2, ![M, K]⟩ ⟨2, ![N, K]⟩ ⟨2, ![M, N]⟩).lhsIdx_val_of_single rfl i q

/-- Right operand index of `A·Bᵀ`, kept axis: the output's column. -/
theorem mmT_r0 (wf : DotDims.WF ⟨2, ![M, K]⟩ ⟨2, ![N, K]⟩ ⟨2, ![M, N]⟩ [1] [1] [0] [0] [] [])
    (i : (⟨2, ![M, N]⟩ : Shape).Idx)
    (q : (⟨[1], [1], [0], [0], [], [], wf⟩ : DotDims ⟨2, ![M, K]⟩ ⟨2, ![N, K]⟩ ⟨2, ![M, N]⟩).contr.Idx) :
    ((⟨[1], [1], [0], [0], [], [], wf⟩ : DotDims ⟨2, ![M, K]⟩ ⟨2, ![N, K]⟩ ⟨2, ![M, N]⟩).rhsIdx i q 0).val = (i 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- Right operand index, contracted axis: the contraction position. -/
theorem mmT_r1 (wf : DotDims.WF ⟨2, ![M, K]⟩ ⟨2, ![N, K]⟩ ⟨2, ![M, N]⟩ [1] [1] [0] [0] [] [])
    (i : (⟨2, ![M, N]⟩ : Shape).Idx)
    (q : (⟨[1], [1], [0], [0], [], [], wf⟩ : DotDims ⟨2, ![M, K]⟩ ⟨2, ![N, K]⟩ ⟨2, ![M, N]⟩).contr.Idx) :
    ((⟨[1], [1], [0], [0], [], [], wf⟩ : DotDims ⟨2, ![M, K]⟩ ⟨2, ![N, K]⟩ ⟨2, ![M, N]⟩).rhsIdx i q 1).val
      = (q ⟨0, Nat.one_pos⟩).val :=
  (⟨[1], [1], [0], [0], [], [], wf⟩ : DotDims ⟨2, ![M, K]⟩ ⟨2, ![N, K]⟩ ⟨2, ![M, N]⟩).rhsIdx_val_of_single rfl i q

/-- A product `[M,K]·[N,K]ᵀ` (the columns of both operands contracted) into the zero accumulator, read at `(p, c)`:
    the sum over `k` of `lhs (p, k) · rhs (c, k)`. -/
theorem matmulT_apply (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact mmT_l0 wf _ _
    | ⟨1, _⟩ => exact (mmT_l1 wf _ _).trans hk)
  have er : D.rhsIdx (ix2 p c) ((contrEquiv1 D K rfl rfl).symm k) = ix2 c k := funext fun ax => Fin.ext (by
    match ax with
    | ⟨0, _⟩ => exact mmT_r0 wf _ _
    | ⟨1, _⟩ => exact (mmT_r1 wf _ _).trans hk)
  rw [el, er]

end MatmulT

/-! ## The body's two stored values, at an index -/

/-- The reset value is zero everywhere. -/
theorem pay1_apply (a b : Fin 16) : (k1_pay1 (F := Ideal)) (ix2 a b) = 0 := by
  unfold k1_pay1
  exact Ideal.ofBits_zero_f32

/-- The update: the block's entry plus the inner product of row `a` of `g` with row `b` of `f`. -/
theorem pay2_apply (g f : Vec Ideal S16x16384 .f32) (acc : Vec Ideal S16x16 .f32) (a b : Fin 16) :
    k1_pay2 g f acc (ix2 a b) = acc (ix2 a b) + ∑ k : Fin 16384, g (ix2 a k) * f (ix2 b k) := by
  unfold k1_pay2
  refine (addf_apply _ _ (ix2 a b)).trans ?_
  refine congrArg₂ (· + ·) (congrFun (shapeCast_self acc shapeCasts_S16x16_S16x16) (ix2 a b)) ?_
  refine (matmulT_apply dot_S16x16384_S16x16384_S16x16_1_1_0_0_n_n_wf none _ _ a b).trans ?_
  refine Finset.sum_congr rfl fun k _ => ?_
  refine congrArg₂ (· * ·) ?_ ?_
  · exact congrFun (shapeCast_self g shapeCasts_S16x16384_S16x16384) (ix2 a k)
  · exact congrFun (shapeCast_self f shapeCasts_S16x16384_S16x16384) (ix2 b k)

/-! ## What each case leaves in the output block -/

section Pieces
variable {F : FTy → Type} [FloatOps F]

/-- Case B (points 1 … 7): the block holding `xo` is left at the update of `xo` by the two input blocks. -/
theorem out_B (c : Dev nD) (i : grid1.Coords) (a1 : Memref sig .tc .vmem S16x16384 .f32) (h1 : a1.IsWhole)
    (a2 : Memref sig .tc .vmem S16x16384 .f32) (h2 : a2.IsWhole) (a3 : Memref sig .tc .vmem S16x16 .f32) (h3 : a3.IsWhole)
    (hc : ¬cond1_0 i) (x0 x1 : Vec F S16x16384 .f32) (xo : Vec F S16x16 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread, View.ld_unit_zero (S := S16x16384) hz,
    View.ld_unit_zero (S := S16x16) hz]

/-- Case A (point 0): the block is reset, read back, and left at the update of the reset value. -/
theorem out_A (c : Dev nD) (i : grid1.Coords) (a1 : Memref sig .tc .vmem S16x16384 .f32) (h1 : a1.IsWhole)
    (a2 : Memref sig .tc .vmem S16x16384 .f32) (h2 : a2.IsWhole) (a3 : Memref sig .tc .vmem S16x16 .f32) (h3 : a3.IsWhole)
    (hc : cond1_0 i) (x0 x1 : Vec F S16x16384 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S16x16) hz, View.readCov_unit_zero (S := S16x16) _ hz]
  simp only [View.readAt_eq_ld, h1.read_unread, h2.read_unread, View.ld_unit_zero (S := S16x16384) hz]

end Pieces

/-! ## The run: the block after each point, and the array after the last -/

/-- The two input arrays and their blocks at a point, at their literal types. -/
abbrev garr (c : Dev nD) : Vec Ideal S16x131072 .f32 := V c main_v5
abbrev farr (c : Dev nD) : Vec Ideal S16x131072 .f32 := V c main_v6
abbrev gblk (c : Dev nD) (t : Fin cfg1.N) : Vec Ideal S16x16384 .f32 := iblk1 V c 0 t
abbrev fblk (c : Dev nD) (t : Fin cfg1.N) : Vec Ideal S16x16384 .f32 := iblk1 V c 1 t

/-- Column `k` of block `s` in the flattened axis: `s · 16384 + k` (for `s < 8`). -/
def col (s : ℕ) (k : Fin 16384) : Fin 131072 := ⟨(s * 16384 + k.val) % 131072, Nat.mod_lt _ (by decide)⟩

theorem col_val (s : ℕ) (hs : s < 8) (k : Fin 16384) : (col s k).val = s * 16384 + k.val := by
  have := k.isLt
  show (s * 16384 + k.val) % 131072 = _
  omega

/-- The block indices of the two inputs at point `t`: row block 0, column block `t`. -/
theorem index1_0 : ∀ t : Fin cfg1.N, win1_0.index t 0 = 0 ∧ win1_0.index t 1 = t.val :=
  (by decide +kernel : ∀ t : Fin grid1.N, win1_0.index t 0 = 0 ∧ win1_0.index t 1 = t.val)
theorem index1_1 : ∀ t : Fin cfg1.N, win1_1.index t 0 = 0 ∧ win1_1.index t 1 = t.val :=
  (by decide +kernel : ∀ t : Fin grid1.N, win1_1.index t 0 = 0 ∧ win1_1.index t 1 = t.val)

/-- Block `t` of `g` at `(a, k)` is `g (a, t · 16384 + k)`. -/
theorem gblk_apply (c : Dev nD) (t : Fin cfg1.N) (a : Fin 16) (k : Fin 16384) :
    gblk V c t (ix2 a k) = garr V c (ix2 a (col t.val k)) := by
  have hN : t.val < 8 := lt_of_lt_of_eq t.isLt (show cfg1.N = 8 from N_1)
  show ((cfg1.win 0).blk t).view.read (Elt Ideal) (V c (Pipeline.arrRef spec1 0)) (ix2 a k) = _
  rw [View.read_apply]
  show V c main_v5 _ = V c main_v5 _
  congr 1
  funext ax
  apply Fin.ext
  match ax with
  | ⟨0, _⟩ => show win1_0.index t 0 * 16 + 1 * a.val = a.val; rw [(index1_0 t).1]; omega
  | ⟨1, _⟩ => show win1_0.index t 1 * 16384 + 1 * k.val = (col t.val k).val; rw [(index1_0 t).2, col_val _ hN]; omega

/-- Block `t` of `f` at `(b, k)` is `f (b, t · 16384 + k)`. -/
theorem fblk_apply (c : Dev nD) (t : Fin cfg1.N) (b : Fin 16) (k : Fin 16384) :
    fblk V c t (ix2 b k) = farr V c (ix2 b (col t.val k)) := by
  have hN : t.val < 8 := lt_of_lt_of_eq t.isLt (show cfg1.N = 8 from N_1)
  show ((cfg1.win 1).blk t).view.read (Elt Ideal) (V c (Pipeline.arrRef spec1 1)) (ix2 b k) = _
  rw [View.read_apply]
  show V c main_v6 _ = V c main_v6 _
  congr 1
  funext ax
  apply Fin.ext
  match ax with
  | ⟨0, _⟩ => show win1_1.index t 0 * 16 + 1 * b.val = b.val; rw [(index1_1 t).1]; omega
  | ⟨1, _⟩ => show win1_1.index t 1 * 16384 + 1 * k.val = (col t.val k).val; rw [(index1_1 t).2, col_val _ hN]; omega

/-- Point `s`'s addend at `(a, b)`: the inner product over block `s`'s columns. -/
def addend (c : Dev nD) (s : ℕ) (a b : Fin 16) : EReal :=
  ∑ k : Fin 16384, garr V c (ix2 a (col s k)) * farr V c (ix2 b (col s k))

theorem blk_sum (c : Dev nD) (t : Fin cfg1.N) (a b : Fin 16) :
    ∑ k : Fin 16384, gblk V c t (ix2 a k) * fblk V c t (ix2 b k) = addend V c t.val a b :=
  Finset.sum_congr rfl fun k _ => by rw [gblk_apply V c t a k, fblk_apply V c t b k]

/-- After point `n` the block holds, at `(a, b)`, the sum of the addends of points `0 … n`. -/
theorem outsAt_apply (c : Dev nD) : ∀ (n : ℕ) (hn : n < cfg1.N) (a b : Fin 16),
    outsAt1 V c n hn (ix2 a b) = ∑ s ∈ Finset.range (n + 1), addend V c s a b
  | 0, hn, a, b => by
    rw [outsAt1_A V c ⟨0, hn⟩ (Nat.zero_mod 8)]
    refine (congrFun (out_A (F := Ideal) c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) ((hcond1_0 ⟨0, hn⟩).mpr (Nat.zero_mod 8)) (gblk V c ⟨0, hn⟩) (fblk V c ⟨0, hn⟩)) (ix2 a b)).trans ?_
    rw [pay2_apply, pay1_apply, zero_add, Finset.sum_range_one]
    exact blk_sum V c ⟨0, hn⟩ a b
  | n + 1, hn, a, b => by
    have hN : cfg1.N = 8 := N_1
    have hB : ¬(⟨n + 1, hn⟩ : Fin cfg1.N).val % 8 = 0 := by dsimp only; omega
    rw [outsAt1_B V c ⟨n + 1, hn⟩ hB]
    dsimp only
    refine (congrFun (out_B (F := Ideal) c (grid1.coords ⟨n + 1, hn⟩) (ms1_0 ⟨n + 1, hn⟩) (hs1_0 ⟨n + 1, hn⟩) (ms1_1 ⟨n + 1, hn⟩)
      (hs1_1 ⟨n + 1, hn⟩) (ms1_2 ⟨n + 1, hn⟩) (hs1_2 ⟨n + 1, hn⟩) (fun h => hB ((hcond1_0 ⟨n + 1, hn⟩).mp h))
      (gblk V c ⟨n + 1, hn⟩) (fblk V c ⟨n + 1, hn⟩) (outsAt1 V c n (Nat.lt_of_succ_lt hn))) (ix2 a b)).trans ?_
    rw [pay2_apply, Finset.sum_range_succ _ (n + 1)]
    exact congrArg₂ (· + ·) (outsAt_apply c n (Nat.lt_of_succ_lt hn) a b) (blk_sum V c ⟨n + 1, hn⟩ a b)

/-- The eight blocks of 16384 columns are the 131072 columns. -/
theorem sum_blocks (G : Fin 131072 → EReal) :
    ∑ s ∈ Finset.range 8, ∑ k : Fin 16384, G (col s k) = ∑ n : Fin 131072, G n := by
  rw [Finset.sum_range (fun s => ∑ k : Fin 16384, G (col s k)), ← Fintype.sum_prod_type']
  refine Fintype.sum_equiv (finProdFinEquiv (m := 8) (n := 16384)) _ _ fun x => congrArg G (Fin.ext ?_)
  have h1 := x.1.isLt
  have h2 := x.2.isLt
  rw [col_val _ h1]
  show x.1.val * 16384 + x.2.val = x.2.val + 16384 * x.1.val
  omega

/-- So after the last point the block is the matrix of inner products over all columns. -/
theorem outsAt_last (c : Dev nD) (h : 7 < cfg1.N) : outsAt1 V c 7 h = Math.gram (garr V c) (farr V c) := by
  funext j
  obtain ⟨a, b, rfl⟩ : ∃ a b, j = ix2 a b := ⟨j 0, j 1, eq_ix2 j⟩
  rw [outsAt_apply V c 7 h a b]
  exact sum_blocks (fun n => garr V c (ix2 a n) * farr V c (ix2 b n))

/-- The output's one block sits at block index `(0, 0)` at every point, -/
theorem index1_2 : ∀ (t : Fin cfg1.N) (a : Fin 2), win1_2.index t a = 0 :=
  (by decide +kernel : ∀ (t : Fin grid1.N) (a : Fin 2), win1_2.index t a = 0)

/-- so an entry of the block is the same entry of the array, -/
theorem emb_last (j : S16x16.Idx) : ((cfg1.win 2).blk t1_7).view.emb j = j :=
  funext fun a => Fin.ext (win1_2.rect_emb_val_of_index_zero t1_7 a (index1_2 t1_7 a) j)

/-- and every entry of the array lies in the block. -/
theorem mem_last (j : S16x16.Idx) : j ∈ ((cfg1.win 2).blk t1_7).view.set :=
  (congrArg (fun x => x ∈ ((cfg1.win 2).blk t1_7).view.set) (emb_last j)).mp (((cfg1.win 2).blk t1_7).view.emb_mem_set j)

/-- The one write-back, at the last point, writes the matrix of inner products: read through the block, a matrix is
    itself. -/
theorem flushed_eq (c : Dev nD) (t : Fin cfg1.N) (hf : (cfg1.win 2).flush t = true) :
    (dat1 V c).flushed 2 t = ((cfg1.win 2).blk t).view.read (Elt Ideal) (Math.gram (garr V c) (farr V c)) := by
  have hN : cfg1.N = 8 := N_1
  obtain rfl : t = t1_7 := Fin.ext (by have := (flush1_2 t).mp hf; have := t.isLt; show t.val = 7; omega)
  have hoff : (fun a => win1_2.index t1_7 a * main_v9.ty.shape.size a) = fun _ => 0 :=
    funext fun a => by rw [index1_2 t1_7 a, Nat.zero_mul]
  have hread := Memref.read_access_unit_zero (Elt Ideal) main_v9 hoff
    (fun a => Nat.le_of_eq (by rw [congrFun hoff a]; exact Nat.zero_add _)) (Math.gram (garr V c) (farr V c))
  refine Eq.trans ?_ hread.symm
  show (cfg1.win 2).cut (grid1.coords t1_7) ((dat1 V c).after 2 t1_7) = _
  rw [after1_2]
  exact outsAt_last V c t1_7.isLt

end Region1

theorem region1_s (c : Dev nD) :
    (dat1 V c).arrAt 2 cfg1.N = Math.gram (V c main_v5) (V c main_v6) := by
  exact (dat1 V c).arrAt_eq_of_cover 2 (Math.gram (Region1.garr V c) (Region1.farr V c)) (Region1.flushed_eq V c)
    fun i => ⟨t1_7, (flush1_2 t1_7).mpr rfl, Region1.mem_last i⟩

end Cert.KernelIdeal.Val

end
-- ==== Proof.Region2.lean ====
/-
  The third pallas_call, read as values: after its 32 grid points the output array holds, at every index, the scalar
  times the weighted sum over the 16 rows of the flattened values, plus the flattened image (a block of 32768 columns
  per point; the blocks tile the columns).
-/
import proofs.«121409_j13391708029779_1_alg».proof.Proof.Gen.KernelIdeal.Frame
import proofs.«121409_j13391708029779_1_alg».proof.Proof.Math
import proofs.«121409_j13391708029779_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

namespace Region2

/-- The scalar's position, as an index of the one-entry matrix. -/
theorem scalar_idx (hpos : ∀ a, (![0, 0] : Fin 2 → Nat) a < S1x1.size a) :
    (fun a => (⟨(![0, 0] : Fin 2 → Nat) a, hpos a⟩ : Fin (S1x1.size a))) = ix2 (0 : Fin 1) (0 : Fin 1) :=
  funext fun a => Fin.ext (by match a with | ⟨0, _⟩ => rfl | ⟨1, _⟩ => rfl)

/-- The body's payload at `(p, q)`: the scalar times the sum over `k` of `β (p, k) · h (k, q)`, plus `x (p, q)` (the
    narrowing casts are the identity on extended reals, the product into a zero accumulator is the plain sum). -/
theorem pay_apply (β : Vec Ideal S16x16 .f32) (h x : Vec Ideal S16x32768 .f32) (γ : Vec Ideal S1x1 .f32)
    (p : Fin 16) (q : Fin 32768) :
    k2_pay1 (F := Ideal) β h γ x (ix2 p q)
      = γ (ix2 (0 : Fin 1) (0 : Fin 1)) * (∑ k : Fin 16, β (ix2 p k) * h (ix2 k q)) + x (ix2 p q) := by
  unfold k2_pay1
  simp only [shapeCast_self]
  rw [addf_apply, mulf_apply, broadcast_apply]
  have hγ : extractAt ![0, 0] γ inpos_S1x1_p0_0 = γ (ix2 (0 : Fin 1) (0 : Fin 1)) :=
    congrArg γ (scalar_idx inpos_S1x1_p0_0)
  have hm : matmul (F := Ideal) dot_S16x16_S16x32768_S16x32768_1_0_0_1_n_n none (truncf .bf16 β bitsLt_bf16_f32)
      (truncf .bf16 h bitsLt_bf16_f32) (constant S16x32768 .f32 0x00000000#32) (ix2 p q)
        = ∑ k : Fin 16, β (ix2 p k) * h (ix2 k q) := by
    unfold dot_S16x16_S16x32768_S16x32768_1_0_0_1_n_n
    exact Cert.RowOps.matmul_apply _ none (truncf .bf16 β bitsLt_bf16_f32) (truncf .bf16 h bitsLt_bf16_f32) p q
  rw [hγ, hm]

/-- The payload of a block at `(p, q)` is the whole-array function at `i`, once each block entry it reads is the
    array entry the index `i` names. -/
theorem pay_eq_mix (β : Vec Ideal S16x16 .f32) (H X : Vec Ideal S16x1048576 .f32) (γ : Vec Ideal S1x1 .f32)
    (b0 : Vec Ideal S16x16 .f32) (b1 b2 : Vec Ideal S16x32768 .f32) (b3 : Vec Ideal S1x1 .f32)
    (i : S16x1048576.Idx) (p : Fin 16) (q : Fin 32768)
    (h3 : b3 (ix2 (0 : Fin 1) (0 : Fin 1)) = γ (ix2 (0 : Fin 1) (0 : Fin 1)))
    (h0 : ∀ k : Fin 16, b0 (ix2 p k) = β (ix2 (i 0) k))
    (h1 : ∀ k : Fin 16, b1 (ix2 k q) = H (ix2 k (i 1)))
    (h2 : b2 (ix2 p q) = X i) :
    k2_pay1 (F := Ideal) b0 b1 b3 b2 (ix2 p q) = Math.mix β H X γ i := by
  rw [pay_apply, h3, h2]
  unfold Math.mix
  simp only [h0, h1]

variable (V : (c : Dev nD) → (b : Ref sig .tc) → Buf (Elt Ideal) ((c : Thread nD τ).loc b))

/-- The zero offsets, however spelt. -/
theorem zero_off : (![0, 0] : Fin 2 → Nat) = fun _ => 0 := funext fun a => by fin_cases a <;> rfl

/-- The block index maps over the grid: the attention matrix and the scalar stay at block `(0, 0)`; the values, the
    image and the output are at block `(0, t)` at point `t`. -/
theorem idx_facts : ∀ t : Fin cfg2.N,
    win2_0.index t (0 : Fin 2) = 0 ∧ win2_0.index t (1 : Fin 2) = 0
    ∧ win2_3.index t (0 : Fin 2) = 0 ∧ win2_3.index t (1 : Fin 2) = 0
    ∧ win2_1.index t (0 : Fin 2) = 0 ∧ win2_1.index t (1 : Fin 2) = t.val
    ∧ win2_2.index t (0 : Fin 2) = 0 ∧ win2_2.index t (1 : Fin 2) = t.val
    ∧ win2_4.index t (0 : Fin 2) = 0 ∧ win2_4.index t (1 : Fin 2) = t.val :=
  (by decide +kernel : ∀ t : Fin grid2.N, _)

/-- What point `t` writes back is block `t` of the whole-array function of the arrays the region found. -/
theorem flushed_eq (c : Dev nD) (t : Fin cfg2.N) :
    (dat2 V c).flushed 4 t
      = ((cfg2.win 4).blk t).view.read (Elt Ideal) (Math.mix (V c main_v20) (V c main_v7) (V c main_v8) (V c main_v21)) := by
  show (cfg2.win 4).cut (grid2.coords t) ((dat2 V c).after 4 t) = _
  rw [after2_4]
  unfold out2_4
  rw [View.canon_unit_zero zero_off]
  simp only [View.ld_unit_zero (S := S16x32768) zero_off, View.ld_unit_zero (S := S16x16) zero_off, View.ld_unit_zero (S := S1x1) zero_off]
  funext j
  obtain ⟨p, q, rfl⟩ : ∃ (p : Fin 16) (q : Fin 32768), j = ix2 p q := ⟨j 0, j 1, eq_ix2 j⟩
  obtain ⟨a00, a01, a30, a31, a10, a11, a20, a21, a40, a41⟩ := idx_facts t
  show k2_pay1 (F := Ideal) (iblk2 V c 0 t) (iblk2 V c 1 t) (iblk2 V c 3 t) (iblk2 V c 2 t) (ix2 p q)
    = Math.mix (V c main_v20) (V c main_v7) (V c main_v8) (V c main_v21) (((cfg2.win 4).blk t).view.emb (ix2 p q))
  refine pay_eq_mix _ _ _ _ _ _ _ _ _ p q ?_ ?_ ?_ ?_
  · show V c main_v21 (((cfg2.win 3).blk t).view.emb (ix2 (0 : Fin 1) (0 : Fin 1))) = V c main_v21 (ix2 (0 : Fin 1) (0 : Fin 1))
    refine congrArg (V c main_v21) (funext fun a => Fin.ext ?_)
    match a with
    | ⟨0, _⟩ => show win2_3.index t (0 : Fin 2) * 1 + 1 * 0 = 0; omega
    | ⟨1, _⟩ => show win2_3.index t (1 : Fin 2) * 1 + 1 * 0 = 0; omega
  · intro k
    show V c main_v20 (((cfg2.win 0).blk t).view.emb (ix2 p k))
      = V c main_v20 (ix2 ((((cfg2.win 4).blk t).view.emb (ix2 p q)) 0) k)
    refine congrArg (V c main_v20) (funext fun a => Fin.ext ?_)
    match a with
    | ⟨0, _⟩ => show win2_0.index t (0 : Fin 2) * 16 + 1 * p.val = win2_4.index t (0 : Fin 2) * 16 + 1 * p.val; omega
    | ⟨1, _⟩ => show win2_0.index t (1 : Fin 2) * 16 + 1 * k.val = k.val; omega
  · intro k
    show V c main_v7 (((cfg2.win 1).blk t).view.emb (ix2 k q))
      = V c main_v7 (ix2 k ((((cfg2.win 4).blk t).view.emb (ix2 p q)) 1))
    refine congrArg (V c main_v7) (funext fun a => Fin.ext ?_)
    match a with
    | ⟨0, _⟩ => show win2_1.index t (0 : Fin 2) * 16 + 1 * k.val = k.val; omega
    | ⟨1, _⟩ => show win2_1.index t (1 : Fin 2) * 32768 + 1 * q.val = win2_4.index t (1 : Fin 2) * 32768 + 1 * q.val; omega
  · show V c main_v8 (((cfg2.win 2).blk t).view.emb (ix2 p q)) = V c main_v8 (((cfg2.win 4).blk t).view.emb (ix2 p q))
    refine congrArg (V c main_v8) (funext fun a => Fin.ext ?_)
    match a with
    | ⟨0, _⟩ => show win2_2.index t (0 : Fin 2) * 16 + 1 * p.val = win2_4.index t (0 : Fin 2) * 16 + 1 * p.val; omega
    | ⟨1, _⟩ => show win2_2.index t (1 : Fin 2) * 32768 + 1 * q.val = win2_4.index t (1 : Fin 2) * 32768 + 1 * q.val; omega

/-- An index of the array is in point `t`'s block iff each coordinate is in the block's range on its axis. -/
theorem mem_blk (t : Fin cfg2.N) (i : S16x1048576.Idx) :
    i ∈ ((cfg2.win 4).blk t).view.set ↔ ∀ a : Fin 2, win2_4.index t a * S16x32768.size a ≤ (i a).val
      ∧ (i a).val < win2_4.index t a * S16x32768.size a + S16x32768.size a := by
  show i ∈ ((View.whole main_v22).slice (win2_4.rect t)).set ↔ _
  rw [View.set_slice_whole, Rect.mem_set_unit]
  exact Iff.rfl

/-- Column `n` lies in the block of point `n / 32768`: the blocks tile the columns. -/
theorem covered (i : S16x1048576.Idx) :
    ∃ t : Fin cfg2.N, (cfg2.win 4).flush t = true ∧ i ∈ ((cfg2.win 4).blk t).view.set := by
  have hi0 : (i 0).val < 16 := (i 0).isLt
  have hi1 : (i 1).val < 1048576 := (i 1).isLt
  obtain ⟨t, ht⟩ : ∃ t : Fin cfg2.N, t.val = (i 1).val / 32768 :=
    ⟨⟨(i 1).val / 32768, by show (i 1).val / 32768 < grid2.N; rw [N_2]; omega⟩, rfl⟩
  obtain ⟨-, -, -, -, -, -, -, -, a40, a41⟩ := idx_facts t
  refine ⟨t, flush2_4 t, ?_⟩
  rw [mem_blk]
  intro a
  match a with
  | ⟨0, _⟩ =>
    show win2_4.index t (0 : Fin 2) * 16 ≤ (i 0).val ∧ (i 0).val < win2_4.index t (0 : Fin 2) * 16 + 16
    omega
  | ⟨1, _⟩ =>
    show win2_4.index t (1 : Fin 2) * 32768 ≤ (i 1).val ∧ (i 1).val < win2_4.index t (1 : Fin 2) * 32768 + 32768
    omega

end Region2

variable (V : (c : Dev nD) → (b : Ref sig .tc) → Buf (Elt Ideal) ((c : Thread nD τ).loc b))

/-- The output array after the 32 points: the whole-array function of the arrays the region found. -/
theorem region2_out (c : Dev nD) :
    (dat2 V c).arrAt 4 cfg2.N = Math.mix (V c main_v20) (V c main_v7) (V c main_v8) (V c main_v21) :=
  (dat2 V c).arrAt_eq_of_cover 4 _ (fun t _ => Region2.flushed_eq V c t) Region2.covered

end Cert.KernelIdeal.Val

end
-- ==== Proof.KernelValue.lean ====
/-
  The run of the kernel program posted at its result function: the last boundary's contents at the result buffer,
  rewritten region by region and reshape by reshape down to the launch contents of the arguments.
-/
import proofs.«121409_j13391708029779_1_alg».proof.Proof.HostGlue
import proofs.«121409_j13391708029779_1_alg».proof.Proof.KernelResult
import proofs.«121409_j13391708029779_1_alg».proof.Proof.Region0
import proofs.«121409_j13391708029779_1_alg».proof.Proof.Region1
import proofs.«121409_j13391708029779_1_alg».proof.Proof.Region2
import proofs.«121409_j13391708029779_1_alg».proof.Proof.RunNamed

set_option maxRecDepth 16384

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last boundary's contents at the result buffer are `result` of the launch contents of the arguments. -/
theorem W7_result (c : Dev nD) :
    W7 m ρ c (Proc.devRef .tc main_v23)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [W7_main_v23, region2_out (V5 m ρ) c, V5_main_v20, V5_main_v7, V5_main_v8, V5_main_v21,
    region1_s (V3 m ρ) c, V3_main_v5, V3_main_v6,
    region0_f (V1 m ρ) c, region0_g (V1 m ρ) c, region0_h (V1 m ρ) c,
    V1_main_v0, V1_main_v1, V1_main_v2, V1_main_v3, V1_main_arg1, V1_main_arg2, V1_main_arg3]
  rfl

/-- Every weakly fair execution of the kernel program terminates with its result buffer at `result` of the
    arguments and the arguments unchanged. -/
theorem run : θ_run defs (onTc (τ := τ) (main (F := Ideal))) ⟨m, fun _ => 0, ρ⟩ (fun r => ∀ c : Dev nD,
      r.2.mem ((c.tc : Thread nD τ).loc main_v23)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W7_result m ρ c), (h c).2⟩) (run_named (F := Ideal) m ρ)

end Cert.KernelIdeal.Val

end
-- ==== Proof.RefBridge.lean ====
/-
  The kernel's result function IS the reference's: stage by stage, over the extended reals.

  * a projection flattened per batch row: the kernel flattens the image to pixel rows, multiplies, adds the bias row
    and re-flattens; the reference contracts the channel axis of the four-axis image, adds the broadcast bias and
    flattens. At a flat position both read the same pixel, the same weight column and the same bias entry: the
    positions agree by row-major arithmetic.
  * the inner products: the reference contracts against the transposed array, which reads the same entries.
  * the softmax: the same host operations on the same matrix.
  * the last stage: both scale the weighted sum by the one scalar and add the image's entry at the same position.
-/
import proofs.«121409_j13391708029779_1_alg».proof.Proof.KernelResult
import proofs.«121409_j13391708029779_1_alg».proof.Proof.Gen.ReferenceIdeal.Read
import Idealize.ShloMosaic.Lib.Pipeline.Value
import Idealize.ShloMosaic.Lib.ValueIdx

set_option maxRecDepth 16384

noncomputable section

namespace Cert.Bridge

open Cert.ReferenceIdeal Cert.ReferenceIdeal.Read Idealize.ShloMosaic Idealize.ShloMosaic.ValueIdx
open Cert.KernelIdeal.Val (rows flat32 flat256 attn result)
open Cert.KernelIdeal.Math (proj32 proj256 gram softmaxRows expShifted mix)

/-! ## The flattened image -/

/-- Pixel row `r`, channel `k` of the flattened image is the image at batch `r / 4096`, row `r / 64 % 64`, column
    `r % 64`, channel `k`. -/
theorem rows_apply (x : Vec Ideal S16x64x64x256 .f32) (r : Fin 65536) (k : Fin 256) (j : S16x64x64x256.Idx)
    (h0 : (j 0).val = r.val / 4096) (h1 : (j 1).val = r.val / 64 % 64) (h2 : (j 2).val = r.val % 64) (h3 : (j 3).val = k.val) :
    rows x (ix2 r k) = x j := by
  unfold rows
  refine shapeCast_apply x _ (ix2 r k) j ?_
  rw [Shape.rowMajor_val_four, Shape.rowMajor_val_two]
  show (((j 0).val * 64 + (j 1).val) * 64 + (j 2).val) * 256 + (j 3).val = r.val * 256 + k.val
  have := r.isLt
  omega

/-! ## The narrow projections, flattened per batch row -/

/-- The kernel's narrow projection, flattened, is the reference's. -/
theorem flat32_eq (x : Vec Ideal S16x64x64x256 .f32) (W : Vec Ideal S256x32 .f32) (b : Vec Ideal S32 .f32) :
    flat32 x W b = val_main_v12 (F := Ideal) x W b := by
  funext i
  rw [val_main_v12_apply, val_main_v7_apply, val_main_v4_apply, val_main_v6_apply, val_main_v5_apply]
  have hi0 : (i 0).val < 16 := (i 0).isLt
  have hi1 : (i 1).val < 131072 := (i 1).isLt
  unfold flat32
  rw [shapeCast_apply _ _ i (ix2 (⟨((i 0).val * 131072 + (i 1).val) / 32, by omega⟩ : Fin 65536) (⟨((i 0).val * 131072 + (i 1).val) % 32, by omega⟩ : Fin 32))
    (by rw [Shape.rowMajor_val_two, Shape.rowMajor_val_two]
        show ((i 0).val * 131072 + (i 1).val) / 32 * 32 + ((i 0).val * 131072 + (i 1).val) % 32 = (i 0).val * 131072 + (i 1).val
        omega)]
  unfold proj32
  show _ + _ = _ + _
  refine congrArg₂ (· + ·) (Finset.sum_congr rfl fun k _ => congrArg₂ (· * ·) ?_ ?_) ?_
  · refine rows_apply x _ k _ ?_ ?_ ?_ rfl
    · show ((i 0).val * 131072 + (i 1).val) / 131072 = ((i 0).val * 131072 + (i 1).val) / 32 / 4096; omega
    · show ((i 0).val * 131072 + (i 1).val) / 2048 % 64 = ((i 0).val * 131072 + (i 1).val) / 32 / 64 % 64; omega
    · show ((i 0).val * 131072 + (i 1).val) / 32 % 64 = ((i 0).val * 131072 + (i 1).val) / 32 % 64; rfl
  · exact congrArg W (funext fun a => Fin.ext (by match a with | ⟨0, _⟩ => rfl | ⟨1, _⟩ => rfl))
  · refine shapeCast_apply b _ _ _ ?_
    rw [Shape.rowMajor_val_one, Shape.rowMajor_val_two]
    show ((i 0).val * 131072 + (i 1).val) % 32 = 0 * 32 + ((i 0).val * 131072 + (i 1).val) % 32
    omega

/-- The reference's two narrow projections are one function of their weight and bias. -/
theorem val_main_v13_eq (x : Vec Ideal S16x64x64x256 .f32) (W : Vec Ideal S256x32 .f32) (b : Vec Ideal S32 .f32) :
    val_main_v13 (F := Ideal) x W b = val_main_v12 (F := Ideal) x W b := rfl

/-! ## The wide projection, flattened per batch row -/

theorem flat256_eq (x : Vec Ideal S16x64x64x256 .f32) (W : Vec Ideal S256x256 .f32) (b : Vec Ideal S256 .f32) :
    flat256 x W b = val_main_v14 (F := Ideal) x W b := by
  funext i
  rw [val_main_v14_apply, val_main_v11_apply, val_main_v8_apply, val_main_v10_apply, val_main_v9_apply]
  have hi0 : (i 0).val < 16 := (i 0).isLt
  have hi1 : (i 1).val < 1048576 := (i 1).isLt
  unfold flat256
  rw [shapeCast_apply _ _ i (ix2 (⟨((i 0).val * 1048576 + (i 1).val) / 256, by omega⟩ : Fin 65536) (⟨((i 0).val * 1048576 + (i 1).val) % 256, by omega⟩ : Fin 256))
    (by rw [Shape.rowMajor_val_two, Shape.rowMajor_val_two]
        show ((i 0).val * 1048576 + (i 1).val) / 256 * 256 + ((i 0).val * 1048576 + (i 1).val) % 256 = (i 0).val * 1048576 + (i 1).val
        omega)]
  unfold proj256
  show _ + _ = _ + _
  refine congrArg₂ (· + ·) (Finset.sum_congr rfl fun k _ => congrArg₂ (· * ·) ?_ ?_) ?_
  · refine rows_apply x _ k _ ?_ ?_ ?_ rfl
    · show ((i 0).val * 1048576 + (i 1).val) / 1048576 = ((i 0).val * 1048576 + (i 1).val) / 256 / 4096; omega
    · show ((i 0).val * 1048576 + (i 1).val) / 16384 % 64 = ((i 0).val * 1048576 + (i 1).val) / 256 / 64 % 64; omega
    · show ((i 0).val * 1048576 + (i 1).val) / 256 % 64 = ((i 0).val * 1048576 + (i 1).val) / 256 % 64; rfl
  · exact congrArg W (funext fun a => Fin.ext (by match a with | ⟨0, _⟩ => rfl | ⟨1, _⟩ => rfl))
  · refine shapeCast_apply b _ _ _ ?_
    rw [Shape.rowMajor_val_one, Shape.rowMajor_val_two]
    show ((i 0).val * 1048576 + (i 1).val) % 256 = 0 * 256 + ((i 0).val * 1048576 + (i 1).val) % 256
    omega

/-! ## The inner products and the softmax -/

/-- The inner products of the rows of the two flattened projections are the reference's contraction against the
    transposed array. -/
theorem gram_eq (x0 : Vec Ideal S16x64x64x256 .f32) (x1 x2 : Vec Ideal S256x32 .f32) (x4 x5 : Vec Ideal S32 .f32) :
    gram (val_main_v12 (F := Ideal) x0 x2 x5) (val_main_v13 (F := Ideal) x0 x1 x4) = val_main_v16 (F := Ideal) x0 x1 x2 x4 x5 := by
  funext i
  rw [val_main_v16_apply]
  unfold gram
  refine Finset.sum_congr rfl fun k _ => congrArg₂ (· * ·) ?_ ?_
  · exact congrArg _ (funext fun a => Fin.ext (by match a with | ⟨0, _⟩ => rfl | ⟨1, _⟩ => rfl))
  · rw [val_main_v15_apply]
    exact congrArg _ (funext fun a => Fin.ext (by match a with | ⟨0, _⟩ => rfl | ⟨1, _⟩ => rfl))

/-- The reference's attention weights are the same host operations applied to its inner products. -/
theorem softmax_eq (x0 : Vec Ideal S16x64x64x256 .f32) (x1 x2 : Vec Ideal S256x32 .f32) (x4 x5 : Vec Ideal S32 .f32) :
    softmaxRows (val_main_v16 (F := Ideal) x0 x1 x2 x4 x5) = val_main_v27 (F := Ideal) x0 x1 x2 x4 x5 := by
  unfold val_main_v27 val_main_v26 val_main_v25 val_main_v24 val_main_cst_1 val_main_v23 val_main_v22 val_main_v21 val_main_v20
    val_main_v19 val_main_v18 val_main_cst_0 val_main_v17 val_main_cst
  generalize val_main_v16 (F := Ideal) x0 x1 x2 x4 x5 = s
  rfl

/-- The kernel's attention weights are the reference's. -/
theorem attn_eq (x0 : Vec Ideal S16x64x64x256 .f32) (x1 x2 : Vec Ideal S256x32 .f32) (x4 x5 : Vec Ideal S32 .f32) :
    attn x0 x1 x2 x4 x5 = val_main_v27 (F := Ideal) x0 x1 x2 x4 x5 := by
  unfold attn
  rw [flat32_eq, flat32_eq, ← val_main_v13_eq x0 x1 x4, gram_eq, softmax_eq]

/-! ## The last stage -/

/-- The kernel's result function is the reference's last stage, index by index. -/
theorem result_eq (x0 : Vec Ideal S16x64x64x256 .f32) (x1 x2 : Vec Ideal S256x32 .f32) (x3 : Vec Ideal S256x256 .f32)
    (x4 x5 : Vec Ideal S32 .f32) (x6 : Vec Ideal S256 .f32) (x7 : Vec Ideal S1 .f32) :
    result x0 x1 x2 x3 x4 x5 x6 x7 = val_main_v33 (F := Ideal) x0 x1 x2 x3 x4 x5 x6 x7 := by
  funext i
  rw [val_main_v33_apply, val_main_v32_apply, val_main_v31_apply, val_main_v30_apply, val_main_v29_apply, val_main_v28_apply]
  have h0 : (i 0).val < 16 := (i 0).isLt
  have h1 : (i 1).val < 64 := (i 1).isLt
  have h2 : (i 2).val < 64 := (i 2).isLt
  have h3 : (i 3).val < 256 := (i 3).isLt
  unfold result
  rw [shapeCast_apply _ _ i (idx_main_v29 i)
    (by rw [Shape.rowMajor_val_two, Shape.rowMajor_val_four]
        show ((((i 0).val * 64 + (i 1).val) * 64 + (i 2).val) * 256 + (i 3).val) / 1048576 * 1048576 + ((((i 0).val * 64 + (i 1).val) * 64 + (i 2).val) * 256 + (i 3).val) % 1048576 = (((i 0).val * 64 + (i 1).val) * 64 + (i 2).val) * 256 + (i 3).val
        omega)]
  rw [attn_eq, flat256_eq]
  unfold mix
  show _ * _ + _ = _ * _ + _
  refine congrArg₂ (· + ·) (congrArg₂ (· * ·) ?_ (Finset.sum_congr rfl fun k _ => congrArg₂ (· * ·) ?_ ?_)) ?_
  · refine shapeCast_apply x7 _ _ _ ?_
    rw [Shape.rowMajor_val_one, Shape.rowMajor_val_two]
    rfl
  · exact congrArg _ (funext fun a => Fin.ext (by match a with | ⟨0, _⟩ => rfl | ⟨1, _⟩ => rfl))
  · exact congrArg _ (funext fun a => Fin.ext (by match a with | ⟨0, _⟩ => rfl | ⟨1, _⟩ => rfl))
  · refine shapeCast_apply x0 _ _ _ ?_
    rw [Shape.rowMajor_val_four, Shape.rowMajor_val_two]
    show (((i 0).val * 64 + (i 1).val) * 64 + (i 2).val) * 256 + (i 3).val = ((((i 0).val * 64 + (i 1).val) * 64 + (i 2).val) * 256 + (i 3).val) / 1048576 * 1048576 + ((((i 0).val * 64 + (i 1).val) * 64 + (i 2).val) * 256 + (i 3).val) % 1048576
    omega

end Cert.Bridge

end
-- ==== Proof.lean ====
/-
  Self-attention over the batch axis, in three pallas_calls, against its jnp reference, over the extended reals.

  Both programs compute, from an image x : [16,64,64,256], three per-pixel channel projections f = x·Wf + bf,
  g = x·Wg + bg (32 channels) and h = x·Wh + bh (256 channels); flatten each per batch row; take the 16×16 matrix
  s (a, b) = Σ_n g (a, n) · f (b, n) over the 131072 flattened positions; apply the row-wise softmax; and return
  γ · (softmax s · h) + x, reshaped to the image's four axes.

  The kernel computes the projections on blocks of 2048 pixel rows, accumulates s over 8 blocks of 16384 flattened
  positions (reset at the first, written back at the last), and forms the last stage on blocks of 32768 flattened
  positions; its bf16 casts are the identity over the reals and each MXU product into a zero accumulator is the plain
  sum. The only law between the two sides is re-grouping the long sum into its 8 blocks, which holds in any
  commutative additive monoid, so no finiteness of the inputs is used. The softmax is the same chain of host
  operations in both programs and is carried as one function.

  The three frames: the kernel programs' from their generated frame certificates; the reference's from its run.
  `preserves` has no conjunct (the idealization rewrote nothing). `algebraic`: the kernel program's run with its
  result named (Proof/RunNamed), read back region by region to one function of the arguments (Proof/KernelValue over
  Proof/Region0, Region1, Region2 and Proof/HostGlue), which is the reference's last stage index by index
  (Proof/RefBridge).
-/
import proofs.«121409_j13391708029779_1_alg».proof.Defs
import proofs.«121409_j13391708029779_1_alg».proof.Proof.Gen.Kernel
import proofs.«121409_j13391708029779_1_alg».proof.Proof.Gen.Kernel.Skeleton
import proofs.«121409_j13391708029779_1_alg».proof.Proof.Gen.Kernel.Launch
import proofs.«121409_j13391708029779_1_alg».proof.Proof.Gen.Kernel.Points
import proofs.«121409_j13391708029779_1_alg».proof.Proof.Gen.Kernel.Frame
import proofs.«121409_j13391708029779_1_alg».proof.Proof.Gen.KernelIdeal
import proofs.«121409_j13391708029779_1_alg».proof.Proof.Gen.KernelIdeal.Skeleton
import proofs.«121409_j13391708029779_1_alg».proof.Proof.Gen.KernelIdeal.Launch
import proofs.«121409_j13391708029779_1_alg».proof.Proof.Gen.KernelIdeal.Points
import proofs.«121409_j13391708029779_1_alg».proof.Proof.Gen.KernelIdeal.Frame
import proofs.«121409_j13391708029779_1_alg».proof.Proof.Gen.ReferenceIdeal
import proofs.«121409_j13391708029779_1_alg».proof.Proof.Gen.ReferenceIdeal.Run
import proofs.«121409_j13391708029779_1_alg».proof.Proof.Gen.ReferenceIdeal.Read
import proofs.«121409_j13391708029779_1_alg».proof.Proof.Gen.Pre_finite_inputs
import proofs.«121409_j13391708029779_1_alg».proof.Proof.KernelValue
import proofs.«121409_j13391708029779_1_alg».proof.Proof.RefBridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel program's is its
    result function of the arguments, the reference's is its last stage of the same arguments, and the two are one
    function. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v33_eq, e0, e1, e2, e3, e4, e5, e6, e7]
  exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
